-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x32x256x256 : Shape := ⟨4, ![32, 32, 256, 256]⟩
abbrev S32x512x2 : Shape := ⟨3, ![32, 512, 2]⟩
abbrev S32x512 : Shape := ⟨2, ![32, 512]⟩
abbrev S_ : Shape := ⟨0, ![]⟩

class Facts : Prop where
  bcast_S_S32x32x256x256 : S_.BroadcastsInDim S32x32x256x256 (![] : Fin 0 → Fin S32x32x256x256.rank)
  reducesTo_S32x32x256x256_S_d0_1_2_3 : S32x32x256x256.ReducesTo [0, 1, 2, 3] S_
  h_S_ : 0 < S_.numel
  bcast_S_S32x512x2 : S_.BroadcastsInDim S32x512x2 (![] : Fin 0 → Fin S32x512x2.rank)
  reducesTo_S32x512x2_S_d0_1_2 : S32x512x2.ReducesTo [0, 1, 2] S_

variable [Facts]

def fn {F : FTy → Type} [FloatOps F] (main_arg0 : FVec F S32x32x256x256 .f32) (main_arg1 : IVec S32x512x2 32) (main_arg2 : IVec S32x512 32) : IVec S_ 1 :=
  let main_v0 : FVec F S32x32x256x256 .f32 := Host.absf main_arg0
  let main_cst : FVec F S_ .f32 := constant S_ .f32 0x7F800000#32
  let main_v1 : FVec F S32x32x256x256 .f32 := broadcastInDim S32x32x256x256 ![] bcast_S_S32x32x256x256 main_cst
  let main_v2 : IVec S32x32x256x256 1 := cmpf .olt main_v0 main_v1
  let main_c : IVec S_ 1 := constantI S_ 1 1#1
  let main_v3 : IVec S_ 1 := (fun x v => Host.reduce IntOp.andi x v reducesTo_S32x32x256x256_S_d0_1_2_3 h_S_) main_v2 main_c
  let main_c_0 : IVec S_ 32 := constantI S_ 32 0#32
  let main_v4 : IVec S32x512x2 32 := broadcastInDim S32x512x2 ![] bcast_S_S32x512x2 main_c_0
  let main_v5 : IVec S32x512x2 1 := cmpi .sge main_arg1 main_v4
  let main_c_1 : IVec S_ 32 := constantI S_ 32 256#32
  let main_v6 : IVec S32x512x2 32 := broadcastInDim S32x512x2 ![] bcast_S_S32x512x2 main_c_1
  let main_v7 : IVec S32x512x2 1 := cmpi .slt main_arg1 main_v6
  let main_v8 : IVec S32x512x2 1 := andi main_v5 main_v7
  let main_c_2 : IVec S_ 1 := constantI S_ 1 1#1
  let main_v9 : IVec S_ 1 := (fun x v => Host.reduce IntOp.andi x v reducesTo_S32x512x2_S_d0_1_2 h_S_) main_v8 main_c_2
  let main_v10 : IVec S_ 1 := andi main_v3 main_v9
  main_v10
-- ==== Kernel.lean ====
abbrev S32x32x256x256 : Shape := ⟨4, ![32, 32, 256, 256]⟩
abbrev S32x512x2 : Shape := ⟨3, ![32, 512, 2]⟩
abbrev S32x512 : Shape := ⟨2, ![32, 512]⟩
abbrev S32x512x1 : Shape := ⟨3, ![32, 512, 1]⟩
abbrev S32x1x512 : Shape := ⟨3, ![32, 1, 512]⟩
abbrev S32x32x512 : Shape := ⟨3, ![32, 32, 512]⟩
abbrev S1x32x256x256 : Shape := ⟨4, ![1, 32, 256, 256]⟩
abbrev S1x1x512 : Shape := ⟨3, ![1, 1, 512]⟩
abbrev S1x32x512 : Shape := ⟨3, ![1, 32, 512]⟩
abbrev S1x512 : Shape := ⟨2, ![1, 512]⟩
abbrev S256x512 : Shape := ⟨2, ![256, 512]⟩
abbrev S1x32x8x256 : Shape := ⟨4, ![1, 32, 8, 256]⟩
abbrev S32x8x256 : Shape := ⟨3, ![32, 8, 256]⟩
abbrev S8x512 : Shape := ⟨2, ![8, 512]⟩
abbrev S8x1x512 : Shape := ⟨3, ![8, 1, 512]⟩
abbrev S1x256x512 : Shape := ⟨3, ![1, 256, 512]⟩
abbrev S8x256x512 : Shape := ⟨3, ![8, 256, 512]⟩
abbrev S2048x512 : Shape := ⟨2, ![2048, 512]⟩
abbrev S32x2048 : Shape := ⟨2, ![32, 2048]⟩
abbrev S1x1 : Shape := ⟨2, ![1, 1]⟩
abbrev S1x512x1 : Shape := ⟨3, ![1, 512, 1]⟩
abbrev S512x512 : Shape := ⟨2, ![512, 512]⟩
abbrev S512 : Shape := ⟨1, ![512]⟩
abbrev S512x1 : Shape := ⟨2, ![512, 1]⟩
abbrev S1 : Shape := ⟨1, ![1]⟩
abbrev S_ : Shape := ⟨0, ![]⟩

abbrev nBuf : Space → Nat
  | .hbm => 14
  | .vmem => 16
  | .smem => 0
  | _ => 0

abbrev bufTy : (tb : Table) → Fin (tcTables nBuf tb) → BufTy
  | .hbm, ⟨0, _⟩ => ⟨S32x32x256x256, .f32⟩
  | .hbm, ⟨1, _⟩ => ⟨S32x512x2, .i32⟩
  | .hbm, ⟨2, _⟩ => ⟨S32x512, .i32⟩
  | .hbm, ⟨3, _⟩ => ⟨S32x512x1, .i32⟩
  | .hbm, ⟨4, _⟩ => ⟨S32x512, .i32⟩
  | .hbm, ⟨5, _⟩ => ⟨S32x1x512, .i32⟩
  | .hbm, ⟨6, _⟩ => ⟨S32x512x1, .i32⟩
  | .hbm, ⟨7, _⟩ => ⟨S32x512, .i32⟩
  | .hbm, ⟨8, _⟩ => ⟨S32x1x512, .i32⟩
  | .hbm, ⟨9, _⟩ => ⟨S32x32x512, .f32⟩
  | .hbm, ⟨10, _⟩ => ⟨S32x512x1, .i32⟩
  | .hbm, ⟨11, _⟩ => ⟨S32x1x512, .i32⟩
  | .hbm, ⟨12, _⟩ => ⟨S1x1, .f32⟩
  | .hbm, ⟨13, _⟩ => ⟨S_, .f32⟩
  | .local _ .vmem, ⟨0, _⟩ => ⟨S1x32x256x256, .f32⟩
  | .local _ .vmem, ⟨1, _⟩ => ⟨S1x32x256x256, .f32⟩
  | .local _ .vmem, ⟨2, _⟩ => ⟨S1x1x512, .i32⟩
  | .local _ .vmem, ⟨3, _⟩ => ⟨S1x1x512, .i32⟩
  | .local _ .vmem, ⟨4, _⟩ => ⟨S1x1x512, .i32⟩
  | .local _ .vmem, ⟨5, _⟩ => ⟨S1x1x512, .i32⟩
  | .local _ .vmem, ⟨6, _⟩ => ⟨S1x32x512, .f32⟩
  | .local _ .vmem, ⟨7, _⟩ => ⟨S1x32x512, .f32⟩
  | .local _ .vmem, ⟨8, _⟩ => ⟨S32x512, .f32⟩
  | .local _ .vmem, ⟨9, _⟩ => ⟨S1x32x512, .f32⟩
  | .local _ .vmem, ⟨10, _⟩ => ⟨S1x32x512, .f32⟩
  | .local _ .vmem, ⟨11, _⟩ => ⟨S1x512x1, .i32⟩
  | .local _ .vmem, ⟨12, _⟩ => ⟨S1x512x1, .i32⟩
  | .local _ .vmem, ⟨13, _⟩ => ⟨S1x1x512, .i32⟩
  | .local _ .vmem, ⟨14, _⟩ => ⟨S1x1x512, .i32⟩
  | .local _ .vmem, ⟨15, _⟩ => ⟨S1x1, .f32⟩
  | _, _ => ⟨S32x32x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c32_i32 : BitVec 32 := 32#32
  let v14 : BitVec 32 := Scalar.addi c0_i32 c32_i32
  let c1_i32 : BitVec 32 := 1#32
  ⟨c0_i32, v14, c1_i32⟩
def k0_mult1 (k0_t1 : Fin k0_t1_loop.trips) : BitVec 32 :=
  let c0_i32_14 : BitVec 32 := 0#32
  let c0_i32 : BitVec 32 := 0#32
  let c1_i32 : BitVec 32 := 1#32
  let arg6 : BitVec 32 := Scf.iv c0_i32 c1_i32 k0_t1
  let c1_i32_13 : BitVec 32 := 1#32
  let v19 : BitVec 32 := Scalar.muli arg6 c1_i32_13
  let v20 : BitVec 32 := Scalar.addi c0_i32_14 v19
  let c8_i32 : BitVec 32 := 8#32
  let v21 : BitVec 32 := Scalar.muli v20 c8_i32
  v21
def k0_off1 (k0_t1 : Fin k0_t1_loop.trips) : Fin 4 → Nat :=
  let c0_15 : Index := 0#32
  let c0_16 : Index := 0#32
  let c0_i32_14 : BitVec 32 := 0#32
  let c0_i32 : BitVec 32 := 0#32
  let c1_i32 : BitVec 32 := 1#32
  let arg6 : BitVec 32 := Scf.iv c0_i32 c1_i32 k0_t1
  let c1_i32_13 : BitVec 32 := 1#32
  let v19 : BitVec 32 := Scalar.muli arg6 c1_i32_13
  let v20 : BitVec 32 := Scalar.addi c0_i32_14 v19
  let c8_i32 : BitVec 32 := 8#32
  let v21 : BitVec 32 := Scalar.muli v20 c8_i32
  let v22 : BitVec 32 := v21
  let v23 : Index := Scalar.indexCast v22
  let c0_17 : Index := 0#32
  ![0, 0, v23.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x32x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x512 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  slices_S32x512x2_S32x512x1_0_0_0 : S32x512x2.Slices ![0, 0, 0] S32x512x1
  shapeCasts_S32x512x1_S32x512 : S32x512x1.ShapeCasts S32x512
  shapeCasts_S32x512_S32x1x512 : S32x512.ShapeCasts S32x1x512
  slices_S32x512x2_S32x512x1_0_0_1 : S32x512x2.Slices ![0, 0, 1] S32x512x1
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  iota_S256x512_d0_w32 : S256x512.Iotas .tc 32 [0]
  broadcasts_S1x512_S256x512 : S1x512.Broadcasts S256x512
  natLt_1_32 : 1 < 32
  bitsLt_bf16_f32 : FTy.bits .bf16 < FTy.bits .f32
  h_S1x32x8x256 : 0 < S1x32x8x256.numel
  shapeCasts_S1x32x8x256_S32x8x256 : S1x32x8x256.ShapeCasts S32x8x256
  iota_S8x512_d0_w32 : S8x512.Iotas .tc 32 [0]
  broadcasts_S1x512_S8x512 : S1x512.Broadcasts S8x512
  shapeCasts_S8x512_S8x1x512 : S8x512.ShapeCasts S8x1x512
  shapeCasts_S256x512_S1x256x512 : S256x512.ShapeCasts S1x256x512
  broadcasts_S8x1x512_S8x256x512 : S8x1x512.Broadcasts S8x256x512
  broadcasts_S1x256x512_S8x256x512 : S1x256x512.Broadcasts S8x256x512
  shapeCasts_S8x256x512_S2048x512 : S8x256x512.ShapeCasts S2048x512
  shapeCasts_S32x8x256_S32x2048 : S32x8x256.ShapeCasts S32x2048
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  shapeCasts_S32x512_S1x32x512 : S32x512.ShapeCasts S1x32x512
  shapeCasts_S32x512_S32x512x1 : S32x512.ShapeCasts S32x512x1
  inb_S1x1_S1x1_0_0 : ∀ a, (![0, 0] : Fin 2 → Nat) a + S1x1.size a ≤ S1x1.size a
  h_S1x1 : 0 < S1x1.numel
  iota_S512x512_d0_w32 : S512x512.Iotas .tc 32 [0]
  iota_S512x512_d1_w32 : S512x512.Iotas .tc 32 [1]
  reduces_S512x512_S512 : S512x512.Reduces [0] S512
  shapeCasts_S512_S1x512 : S512.ShapeCasts S1x512
  reduces_S512x512_S512_2 : S512x512.Reduces [1] S512
  shapeCasts_S512_S512x1 : S512.ShapeCasts S512x1
  broadcasts_S512x1_S512x512 : S512x1.Broadcasts S512x512
  broadcasts_S1x512_S512x512 : S1x512.Broadcasts S512x512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  reduces_S512x1_S1 : S512x1.Reduces [0] S1
  shapeCasts_S1_S1x1 : S1.ShapeCasts S1x1
  shapeCasts_S1x1_S1x1 : S1x1.ShapeCasts S1x1
  shapeCasts_S1x1_S_ : S1x1.ShapeCasts S_
  dot_S32x2048_S2048x512_S32x512_1_0_0_1_n_n_wf : DotDims.WF S32x2048 S2048x512 S32x512 [1] [0] [0] [1] [] []
  dot_S32x512_S32x512_S512x512_0_0_1_1_n_n_wf : DotDims.WF S32x512 S32x512 S512x512 [0] [0] [1] [1] [] []
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S1x32x8x256.size a ≤ S1x32x256x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x256x256.size a ≤ S32x32x256x256.size a
  hwx0_0 : ∀ i : grid0.Coords, EltTy.bits .f32 = 32 ∨ (Rect.block (s := S32x32x256x256) S1x32x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S32x1x512.size a
  hwx0_1 : ∀ i : grid0.Coords, EltTy.bits .i32 = 32 ∨ (Rect.block (s := S32x1x512) S1x1x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S32x1x512.size a
  hwx0_2 : ∀ i : grid0.Coords, EltTy.bits .i32 = 32 ∨ (Rect.block (s := S32x1x512) S1x1x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x512.size a ≤ S32x32x512.size a
  hwx0_3 : ∀ i : grid0.Coords, EltTy.bits .f32 = 32 ∨ (Rect.block (s := S32x32x512) S1x32x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x32x512.size a ≤ S32x32x512.size a
  hwx1_0 : ∀ i : grid1.Coords, EltTy.bits .f32 = 32 ∨ (Rect.block (s := S32x32x512) S1x32x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1.size a ≤ S32x512x1.size a
  hwx1_1 : ∀ i : grid1.Coords, EltTy.bits .i32 = 32 ∨ (Rect.block (s := S32x512x1) S1x512x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x512.size a ≤ S32x1x512.size a
  hwx1_2 : ∀ i : grid1.Coords, EltTy.bits .i32 = 32 ∨ (Rect.block (s := S32x1x512) S1x1x512.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)

variable [Facts₀]

def dot_S32x2048_S2048x512_S32x512_1_0_0_1_n_n : DotDims S32x2048 S2048x512 S32x512 where
  lhsContracting := [1]
  rhsContracting := [0]
  lhsNonContracting := [0]
  rhsNonContracting := [1]
  lhsBatch := []
  rhsBatch := []
  wf := dot_S32x2048_S2048x512_S32x512_1_0_0_1_n_n_wf
def dot_S32x512_S32x512_S512x512_0_0_1_1_n_n : DotDims S32x512 S32x512 S512x512 where
  lhsContracting := [0]
  rhsContracting := [0]
  lhsNonContracting := [1]
  rhsNonContracting := [1]
  lhsBatch := []
  rhsBatch := []
  wf := dot_S32x512_S32x512_S512x512_0_0_1_1_n_n_wf

abbrev win0_0 : Pipeline.Window sig grid0 :=
  Pipeline.Window.ofSpec (Memref.whole main_arg0) S1x32x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x32x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S1x32x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x512x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x32x256x256 : Shape := ⟨4, ![32, 32, 256, 256]⟩
abbrev S32x512x2 : Shape := ⟨3, ![32, 512, 2]⟩
abbrev S32x512 : Shape := ⟨2, ![32, 512]⟩
abbrev S32x512x1 : Shape := ⟨3, ![32, 512, 1]⟩
abbrev S_ : Shape := ⟨0, ![]⟩
abbrev S32x32x512 : Shape := ⟨3, ![32, 32, 512]⟩
abbrev S32x1x512 : Shape := ⟨3, ![32, 1, 512]⟩
abbrev S32x512x512 : Shape := ⟨3, ![32, 512, 512]⟩
abbrev S32 : Shape := ⟨1, ![32]⟩

abbrev nBuf : Space → Nat
  | .hbm => 68
  | .vmem => 0
  | .smem => 0
  | _ => 0

abbrev bufTy : (tb : Table) → Fin (tcTables nBuf tb) → BufTy
  | .hbm, ⟨0, _⟩ => ⟨S32x32x256x256, .f32⟩
  | .hbm, ⟨1, _⟩ => ⟨S32x512x2, .i32⟩
  | .hbm, ⟨2, _⟩ => ⟨S32x512, .i32⟩
  | .hbm, ⟨3, _⟩ => ⟨S32x512x1, .i32⟩
  | .hbm, ⟨4, _⟩ => ⟨S32x512, .i32⟩
  | .hbm, ⟨5, _⟩ => ⟨S32x512x1, .i32⟩
  | .hbm, ⟨6, _⟩ => ⟨S32x512, .i32⟩
  | .hbm, ⟨7, _⟩ => ⟨S_, .i32⟩
  | .hbm, ⟨8, _⟩ => ⟨S32x512, .i32⟩
  | .hbm, ⟨9, _⟩ => ⟨S32x512, .i1⟩
  | .hbm, ⟨10, _⟩ => ⟨S_, .i32⟩
  | .hbm, ⟨11, _⟩ => ⟨S32x512, .i32⟩
  | .hbm, ⟨12, _⟩ => ⟨S32x512, .i32⟩
  | .hbm, ⟨13, _⟩ => ⟨S32x512, .i32⟩
  | .hbm, ⟨14, _⟩ => ⟨S_, .i32⟩
  | .hbm, ⟨15, _⟩ => ⟨S32x512, .i32⟩
  | .hbm, ⟨16, _⟩ => ⟨S32x512, .i1⟩
  | .hbm, ⟨17, _⟩ => ⟨S_, .i32⟩
  | .hbm, ⟨18, _⟩ => ⟨S32x512, .i32⟩
  | .hbm, ⟨19, _⟩ => ⟨S32x512, .i32⟩
  | .hbm, ⟨20, _⟩ => ⟨S32x512, .i32⟩
  | .hbm, ⟨21, _⟩ => ⟨S32x512x1, .i32⟩
  | .hbm, ⟨22, _⟩ => ⟨S32x512x1, .i32⟩
  | .hbm, ⟨23, _⟩ => ⟨S32x512x2, .i32⟩
  | .hbm, ⟨24, _⟩ => ⟨S32x32x512, .f32⟩
  | .hbm, ⟨25, _⟩ => ⟨S32x512x1, .i32⟩
  | .hbm, ⟨26, _⟩ => ⟨S32x1x512, .i32⟩
  | .hbm, ⟨27, _⟩ => ⟨S32x512x512, .i32⟩
  | .hbm, ⟨28, _⟩ => ⟨S32x512x512, .i32⟩
  | .hbm, ⟨29, _⟩ => ⟨S32x512x512, .i1⟩
  | .hbm, ⟨30, _⟩ => ⟨S32x512x512, .f32⟩
  | .hbm, ⟨31, _⟩ => ⟨S32x32x512, .f32⟩
  | .hbm, ⟨32, _⟩ => ⟨S_, .f32⟩
  | .hbm, ⟨33, _⟩ => ⟨S32x512, .f32⟩
  | .hbm, ⟨34, _⟩ => ⟨S_, .f32⟩
  | .hbm, ⟨35, _⟩ => ⟨S32x512, .f32⟩
  | .hbm, ⟨36, _⟩ => ⟨S32x512, .f32⟩
  | .hbm, ⟨37, _⟩ => ⟨S32x512x512, .f32⟩
  | .hbm, ⟨38, _⟩ => ⟨S_, .f32⟩
  | .hbm, ⟨39, _⟩ => ⟨S32x512x512, .f32⟩
  | .hbm, ⟨40, _⟩ => ⟨S32x512x512, .f32⟩
  | .hbm, ⟨41, _⟩ => ⟨S32x512x1, .f32⟩
  | .hbm, ⟨42, _⟩ => ⟨S32x1x512, .f32⟩
  | .hbm, ⟨43, _⟩ => ⟨S32x512x512, .f32⟩
  | .hbm, ⟨44, _⟩ => ⟨S32x512x512, .f32⟩
  | .hbm, ⟨45, _⟩ => ⟨S32x512x512, .f32⟩
  | .hbm, ⟨46, _⟩ => ⟨S_, .f32⟩
  | .hbm, ⟨47, _⟩ => ⟨S32x512x512, .f32⟩
  | .hbm, ⟨48, _⟩ => ⟨S32x512x512, .f32⟩
  | .hbm, ⟨49, _⟩ => ⟨S32x512x512, .f32⟩
  | .hbm, ⟨50, _⟩ => ⟨S32x512x512, .f32⟩
  | .hbm, ⟨51, _⟩ => ⟨S_, .f32⟩
  | .hbm, ⟨52, _⟩ => ⟨S32x512x512, .f32⟩
  | .hbm, ⟨53, _⟩ => ⟨S32x512x512, .f32⟩
  | .hbm, ⟨54, _⟩ => ⟨S_, .f32⟩
  | .hbm, ⟨55, _⟩ => ⟨S32x512x512, .f32⟩
  | .hbm, ⟨56, _⟩ => ⟨S32x512x512, .f32⟩
  | .hbm, ⟨57, _⟩ => ⟨S32x512x512, .f32⟩
  | .hbm, ⟨58, _⟩ => ⟨S32x512x512, .f32⟩
  | .hbm, ⟨59, _⟩ => ⟨S_, .f32⟩
  | .hbm, ⟨60, _⟩ => ⟨S32, .f32⟩
  | .hbm, ⟨61, _⟩ => ⟨S_, .f32⟩
  | .hbm, ⟨62, _⟩ => ⟨S32, .f32⟩
  | .hbm, ⟨63, _⟩ => ⟨S32, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | _, _ => ⟨S32x32x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_v41 : Ref sig .tc := ⟨.hbm, 53, rfl⟩
abbrev main_cst_7 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_8 : Ref sig .tc := ⟨.hbm, 59, rfl⟩
abbrev main_v46 : Ref sig .tc := ⟨.hbm, 60, rfl⟩
abbrev main_cst_9 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩

abbrev nD : Nat := 1
abbrev τ : Topo := Topo.v7x

variable {F : FTy → Type} [FloatOps F]

class Facts₀ : Prop where
  slices_S32x512x2_S32x512x1_0_0_0 : S32x512x2.Slices ![0, 0, 0] S32x512x1
  shapeCasts_S32x512x1_S32x512 : S32x512x1.ShapeCasts S32x512
  slices_S32x512x2_S32x512x1_0_0_1 : S32x512x2.Slices ![0, 0, 1] S32x512x1
  bcast_S_S32x512 : S_.BroadcastsInDim S32x512 (![] : Fin 0 → Fin S32x512.rank)
  bcast_S32x512_S32x512x1_0_1 : S32x512.BroadcastsInDim S32x512x1 (![0, 1] : Fin 2 → Fin S32x512x1.rank)
  concatenates_S32x512x1_S32x512x1_S32x512x2_d2 : Shape.Concatenates [S32x512x1, S32x512x1] S32x512x2 2
  bcast_S32x512_S32x1x512_0_2 : S32x512.BroadcastsInDim S32x1x512 (![0, 2] : Fin 2 → Fin S32x1x512.rank)
  bcast_S32x512x1_S32x512x512_0_1_2 : S32x512x1.BroadcastsInDim S32x512x512 (![0, 1, 2] : Fin 3 → Fin S32x512x512.rank)
  bcast_S32x1x512_S32x512x512_0_1_2 : S32x1x512.BroadcastsInDim S32x512x512 (![0, 1, 2] : Fin 3 → Fin S32x512x512.rank)
  reducesTo_S32x32x512_S32x512_d1 : S32x32x512.ReducesTo [1] S32x512
  h_S_ : 0 < S_.numel
  bcast_S_S32x512x512 : S_.BroadcastsInDim S32x512x512 (![] : Fin 0 → Fin S32x512x512.rank)
  reducesTo_S32x512x512_S32_d1_2 : S32x512x512.ReducesTo [1, 2] S32
  bcast_S_S32 : S_.BroadcastsInDim S32 (![] : Fin 0 → Fin S32.rank)
  reducesTo_S32_S_d0 : S32.ReducesTo [0] S_
  gather_S32x32x256x256_S32x512x2_S32x32x512_1_23_0_0_23_2_13211_wf : GatherDims.WF S32x32x256x256 S32x512x2 S32x32x512 [1] [2, 3] [0] [2, 3] [0] 2 ![1, 32, 1, 1]
  dot_S32x32x512_S32x32x512_S32x512x512_1_1_2_2_0_0_wf : DotDims.WF S32x32x512 S32x32x512 S32x512x512 [1] [1] [2] [2] [0] [0]

variable [Facts₀]

def gather_S32x32x256x256_S32x512x2_S32x32x512_1_23_0_0_23_2_13211 : GatherDims S32x32x256x256 S32x512x2 S32x32x512 where
  offsetDims := [1]
  collapsedSliceDims := [2, 3]
  operandBatchingDims := [0]
  startIndicesBatchingDims := [0]
  startIndexMap := [2, 3]
  indexVectorDim := 2
  sliceSizes := ![1, 32, 1, 1]
  wf := gather_S32x32x256x256_S32x512x2_S32x32x512_1_23_0_0_23_2_13211_wf
def dot_S32x32x512_S32x32x512_S32x512x512_1_1_2_2_0_0 : DotDims S32x32x512 S32x32x512 S32x512x512 where
  lhsContracting := [1]
  rhsContracting := [1]
  lhsNonContracting := [2]
  rhsNonContracting := [2]
  lhsBatch := [0]
  rhsBatch := [0]
  wf := dot_S32x32x512_S32x32x512_S32x512x512_1_1_2_2_0_0_wf

class Facts : Prop extends Facts₀ where

variable [Facts]
-- ==== Proof.Arrays0.lean ====
/-
  The arrays the two regions read and write, index by index, at the boundaries of the run.

  Region 0 is entered after the keypoints' rows and columns have been sliced out and laid out `[32, 1, 512]`; its grid
  point `t` sees image `t` of the embedding maps and row `t` of either coordinate array, and writes block `t` of the
  gathered embeddings `[32, 32, 512]`; the 32 blocks tile that array. Region 1 is entered after the tags have been laid
  out as a column `[32, 512, 1]` and as a row `[32, 1, 512]`; its point `t` sees block `t` of the gathered embeddings
  and of both tag layouts, and its one-element output block is written back once, after the last point; the result is
  that element.
-/
import proofs.«423133_j4836133175850_1_alg».proof.Proof.Gen.KernelIdeal.Frame
import Idealize.ShloMosaic.Lib.Pipeline.Value
import Idealize.ShloMosaic.Lib.ValueLayout
import Idealize.ShloMosaic.Lib.StableHlo.Run

noncomputable section

open scoped BigOperators

namespace Cert.TagLoss.Arrays

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg)

/-- The three argument arrays as launched. -/
abbrev argE (c : Dev nD) : Vec Ideal S32x32x256x256 .f32 := m ((c : Thread nD τ).loc main_arg0)
abbrev argK (c : Dev nD) : Vec Ideal S32x512x2 .i32 := m ((c : Thread nD τ).loc main_arg1)
abbrev argT (c : Dev nD) : Vec Ideal S32x512 .i32 := m ((c : Thread nD τ).loc main_arg2)

/-- A grid point of either region as an image number, and back. -/
def img0 (t : Fin cfg0.N) : Fin 32 := ⟨t.val, lt_of_lt_of_eq t.isLt N_0⟩
def img1 (t : Fin cfg1.N) : Fin 32 := ⟨t.val, lt_of_lt_of_eq t.isLt N_1⟩
def pt0 (b : Fin 32) : Fin cfg0.N := ⟨b.val, lt_of_lt_of_eq b.isLt N_0.symm⟩
def pt1 (b : Fin 32) : Fin cfg1.N := ⟨b.val, lt_of_lt_of_eq b.isLt N_1.symm⟩

/-- Region 0's input blocks at point `t`, each at its literal type. -/
abbrev eblk (c : Dev nD) (t : Fin cfg0.N) : Vec Ideal S1x32x256x256 .f32 := iblk0 (V1 m ρ) c 0 t
abbrev rblk (c : Dev nD) (t : Fin cfg0.N) : Vec Ideal S1x1x512 .i32 := iblk0 (V1 m ρ) c 1 t
abbrev cblk (c : Dev nD) (t : Fin cfg0.N) : Vec Ideal S1x1x512 .i32 := iblk0 (V1 m ρ) c 2 t
/-- The gathered embeddings as region 0 leaves them. -/
abbrev parr (c : Dev nD) : Vec Ideal S32x32x512 .f32 := W2 m ρ c (Proc.devRef .tc main_v6)
/-- Region 1's input blocks at point `t`, each at its literal type. -/
abbrev pblk (c : Dev nD) (t : Fin cfg1.N) : Vec Ideal S1x32x512 .f32 := iblk1 (V3 m ρ) c 0 t
abbrev tcblk (c : Dev nD) (t : Fin cfg1.N) : Vec Ideal S1x512x1 .i32 := iblk1 (V3 m ρ) c 1 t
abbrev trblk (c : Dev nD) (t : Fin cfg1.N) : Vec Ideal S1x1x512 .i32 := iblk1 (V3 m ρ) c 2 t
/-- The result as the last host stretch leaves it. -/
abbrev resv (c : Dev nD) : Vec Ideal S_ .f32 := W5 m ρ c (Proc.devRef .tc main_v10)

/-! ## The arrays region 0 is entered with -/

/-- No slice or reshape before region 0 writes the embedding maps: region 0 finds them as launched. -/
theorem arg0_entry (c : Dev nD) : (V1 m ρ c main_arg0 : Vec Ideal S32x32x256x256 .f32) = argE m c :=
  (StableHlo.after_of_forall_not_mem (b := Proc.devRef .tc main_arg0) _ _ (List.forall_iff_forall_mem.mp (by
      simp only [hostOps0, List.Forall, StableHlo.unary_writes, StableHlo.reshape_writes, Finset.mem_singleton]
      repeat' apply And.intro
      all_goals exact StableHlo.devRef_ne_of_ne (by decide)))).trans rfl

/-- One coordinate of the keypoints, sliced out as a column `[32, 512, 1]` at offsets `off`, flattened to `[32, 512]`
    and laid out `[32, 1, 512]`. -/
abbrev coordRows (x : Vec Ideal S32x512x2 .i32) (off : Fin 3 → Nat) (h : S32x512x2.Slices off S32x512x1) :
    Vec Ideal S32x1x512 .i32 :=
  shapeCast S32x1x512 (shapeCast S32x512 (extractStridedSlice S32x512x1 off x h) shapeCasts_S32x512x1_S32x512)
    shapeCasts_S32x512_S32x1x512

/-- Its entry `(b, 0, k)` is coordinate `q` of keypoint `k` of image `b`: `(b, 0, k)`, `(b, k)` and `(b, k, 0)` all sit
    at row-major position `512 b + k`, and the slice shifts the last coordinate by `q` only. -/
theorem coordRows_apply (x : Vec Ideal S32x512x2 .i32) (off : Fin 3 → Nat) (h : S32x512x2.Slices off S32x512x1)
    (q : Fin 2) (h0 : off 0 = 0) (h1 : off 1 = 0) (h2 : off 2 = q.val) (j : S32x1x512.Idx) :
    coordRows x off h j = x (ix3 (j 0) (j 2) q) := by
  have b0 : (j 0).val < 32 := (j 0).isLt
  have b1 : (j 1).val < 1 := (j 1).isLt
  have b2 : (j 2).val < 512 := (j 2).isLt
  show shapeCast S32x1x512 _ shapeCasts_S32x512_S32x1x512 j = _
  rw [shapeCast_apply _ shapeCasts_S32x512_S32x1x512 j (ix2 (j 0) (j 2))
    (by rewrite [Shape.rowMajor_val_two, Shape.rowMajor_val_three]
        show (j 0).val * 512 + (j 2).val = ((j 0).val * 1 + (j 1).val) * 512 + (j 2).val; omega)]
  rw [shapeCast_apply _ shapeCasts_S32x512x1_S32x512 (ix2 (j 0) (j 2)) (ix3 (j 0) (j 2) (0 : Fin 1))
    (by rewrite [Shape.rowMajor_val_three, Shape.rowMajor_val_two]
        show ((j 0).val * 512 + (j 2).val) * 1 + 0 = (j 0).val * 512 + (j 2).val; omega)]
  exact extractStridedSlice_apply off x h _ _ (fun a => match a with
    | ⟨0, _⟩ => by show (j 0).val = off 0 + (j 0).val; omega
    | ⟨1, _⟩ => by show (j 2).val = off 1 + (j 2).val; omega
    | ⟨2, _⟩ => by show q.val = off 2 + 0; omega)

/-- Region 0 finds the keypoints' rows laid out so, -/
theorem v2_eq (c : Dev nD) : (V1 m ρ c main_v2 : Vec Ideal S32x1x512 .i32)
    = coordRows (argK m c) ![0, 0, 0] slices_S32x512x2_S32x512x1_0_0_0 := by
  show StableHlo.after hostOps0 (W0 m ρ c) (Proc.devRef .tc main_v2) = _
  after_results
  rfl
/-- and their columns. -/
theorem v5_eq (c : Dev nD) : (V1 m ρ c main_v5 : Vec Ideal S32x1x512 .i32)
    = coordRows (argK m c) ![0, 0, 1] slices_S32x512x2_S32x512x1_0_0_1 := by
  show StableHlo.after hostOps0 (W0 m ρ c) (Proc.devRef .tc main_v5) = _
  after_results
  rfl

/-! ## Where each window's block sits: at point `t` it is block `(t, 0, …, 0)` of its array -/

theorem idx0_0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)

theorem idx0_1 : ∀ t : Fin cfg0.N, win0_1.index t (0 : Fin 3) = t.val ∧ win0_1.index t (1 : Fin 3) = 0 ∧ win0_1.index t (2 : Fin 3) = 0 :=
  (by decide +kernel : ∀ t : Fin grid0.N, _)

theorem idx0_2 : ∀ t : Fin cfg0.N, win0_2.index t (0 : Fin 3) = t.val ∧ win0_2.index t (1 : Fin 3) = 0 ∧ win0_2.index t (2 : Fin 3) = 0 :=
  (by decide +kernel : ∀ t : Fin grid0.N, _)

theorem idx0_3 : ∀ t : Fin cfg0.N, win0_3.index t (0 : Fin 3) = t.val ∧ win0_3.index t (1 : Fin 3) = 0 ∧ win0_3.index t (2 : Fin 3) = 0 :=
  (by decide +kernel : ∀ t : Fin grid0.N, _)

/-! ## The input blocks -/

/-- Image `t` of the embedding maps. -/
theorem eblk_apply (c : Dev nD) (t : Fin cfg0.N) (y : S1x32x256x256.Idx) :
    eblk m ρ c t y = argE m c (ix4 (img0 t) (y 1) (y 2) (y 3)) := by
  obtain ⟨e0, e1, e2, e3⟩ := idx0_0 t
  show V1 m ρ c main_arg0 (((cfg0.win 0).blk t).view.emb y) = _
  rw [arg0_entry]
  -- a coordinate of the block's element `y` in the array is block index × block extent + the coordinate inside the block
  refine congrArg (argE m c) (funext fun a => Fin.ext ?_)
  match a with
  | ⟨0, _⟩ => show win0_0.index t (0 : Fin 4) * 1 + 1 * (y 0).val = t.val; have hy : (y 0).val < 1 := (y 0).isLt; omega
  | ⟨1, _⟩ => show win0_0.index t (1 : Fin 4) * 32 + 1 * (y 1).val = (y 1).val; omega
  | ⟨2, _⟩ => show win0_0.index t (2 : Fin 4) * 256 + 1 * (y 2).val = (y 2).val; omega
  | ⟨3, _⟩ => show win0_0.index t (3 : Fin 4) * 256 + 1 * (y 3).val = (y 3).val; omega
/-- Row `t` of the keypoints' rows. -/
theorem rblk_apply (c : Dev nD) (t : Fin cfg0.N) (y : S1x1x512.Idx) :
    rblk m ρ c t y = argK m c (ix3 (img0 t) (y 2) 0) := by
  obtain ⟨e0, e1, e2⟩ := idx0_1 t
  show V1 m ρ c main_v2 (((cfg0.win 1).blk t).view.emb y) = _
  rw [v2_eq, coordRows_apply _ _ _ (0 : Fin 2) rfl rfl rfl]
  refine congrArg (argK m c) (funext fun a => Fin.ext ?_)
  match a with
  | ⟨0, _⟩ => show win0_1.index t (0 : Fin 3) * 1 + 1 * (y 0).val = t.val; have hy : (y 0).val < 1 := (y 0).isLt; omega
  | ⟨1, _⟩ => show win0_1.index t (2 : Fin 3) * 512 + 1 * (y 2).val = (y 2).val; omega
  | ⟨2, _⟩ => rfl
/-- Row `t` of the keypoints' columns. -/
theorem cblk_apply (c : Dev nD) (t : Fin cfg0.N) (y : S1x1x512.Idx) :
    cblk m ρ c t y = argK m c (ix3 (img0 t) (y 2) 1) := by
  obtain ⟨e0, e1, e2⟩ := idx0_2 t
  show V1 m ρ c main_v5 (((cfg0.win 2).blk t).view.emb y) = _
  rw [v5_eq, coordRows_apply _ _ _ (1 : Fin 2) rfl rfl rfl]
  refine congrArg (argK m c) (funext fun a => Fin.ext ?_)
  match a with
  | ⟨0, _⟩ => show win0_2.index t (0 : Fin 3) * 1 + 1 * (y 0).val = t.val; have hy : (y 0).val < 1 := (y 0).isLt; omega
  | ⟨1, _⟩ => show win0_2.index t (2 : Fin 3) * 512 + 1 * (y 2).val = (y 2).val; omega
  | ⟨2, _⟩ => rfl

/-! ## The output: 32 blocks `[1, 32, 512]` along the first axis, one per grid point, each written back at its point -/

/-- The array whose block `b` is what grid point `b` left in its output block. -/
def gathered (c : Dev nD) : Vec Ideal S32x32x512 .f32 :=
  fun j => outsAt0 (V1 m ρ) c (pt0 (j 0)) (ix3 0 (j 1) (j 2))

/-- Read at an index whose first coordinate is `t`, it is point `t`'s block at the index's other two coordinates. -/
theorem gathered_at (c : Dev nD) (t : Fin cfg0.N) (y : S1x32x512.Idx) (i : S32x32x512.Idx)
    (h0 : (i 0).val = t.val) (h1 : (i 1).val = (y 1).val) (h2 : (i 2).val = (y 2).val) :
    gathered m ρ c i = outsAt0 (V1 m ρ) c t y := by
  have ht : pt0 (i 0) = t := Fin.ext h0
  have hy : (ix3 0 (i 1) (i 2) : S1x32x512.Idx) = y := funext fun a => Fin.ext (match a with
    | ⟨0, _⟩ => by have h : (y 0).val < 1 := (y 0).isLt; show 0 = (y 0).val; omega
    | ⟨1, _⟩ => h1
    | ⟨2, _⟩ => h2)
  unfold gathered
  rw [ht, hy]

/-- The output block lies wholly inside its array, so all of it is written back, -/
theorem cut_out (t : Fin cfg0.N) (X : Vec Ideal S1x32x512 .f32) : (cfg0.win 3).cut (grid0.coords t) X = X := rfl
/-- an array read through the block is the array at the block's places, -/
theorem read_out (t : Fin cfg0.N) (G : Vec Ideal S32x32x512 .f32) (y : S1x32x512.Idx) :
    ((cfg0.win 3).blk t).view.read (Elt Ideal) G y = G (((cfg0.win 3).blk t).view.emb y) := rfl
/-- and element `y` of point `t`'s block sits at `(t, y 1, y 2)`. -/
theorem emb_out (t : Fin cfg0.N) (y : S1x32x512.Idx) :
    ((((cfg0.win 3).blk t).view.emb y) 0).val = t.val ∧ ((((cfg0.win 3).blk t).view.emb y) 1).val = (y 1).val
      ∧ ((((cfg0.win 3).blk t).view.emb y) 2).val = (y 2).val := by
  obtain ⟨e0, e1, e2⟩ := idx0_3 t
  refine ⟨?_, ?_, ?_⟩
  · show win0_3.index t (0 : Fin 3) * 1 + 1 * (y 0).val = t.val; have h : (y 0).val < 1 := (y 0).isLt; omega
  · show win0_3.index t (1 : Fin 3) * 32 + 1 * (y 1).val = (y 1).val; omega
  · show win0_3.index t (2 : Fin 3) * 512 + 1 * (y 2).val = (y 2).val; omega

/-- What point `t` writes back is block `t` of `gathered`. -/
theorem flushed_out (c : Dev nD) (t : Fin cfg0.N) :
    (dat0 (V1 m ρ) c).flushed 3 t = ((cfg0.win 3).blk t).view.read (Elt Ideal) (gathered m ρ c) := by
  show (cfg0.win 3).cut (grid0.coords t) ((dat0 (V1 m ρ) c).after 3 t) = _
  rw [after0_3, cut_out]
  funext y
  rw [read_out]
  obtain ⟨h0, h1, h2⟩ := emb_out t y
  exact (gathered_at m ρ c t y _ h0 h1 h2).symm

/-- An index of the array is in point `t`'s block iff each coordinate is in the block's range on its axis. -/
theorem mem_blk_out (t : Fin cfg0.N) (i : S32x32x512.Idx) :
    i ∈ ((cfg0.win 3).blk t).view.set ↔ ∀ a : Fin 3, win0_3.index t a * S1x32x512.size a ≤ (i a).val
      ∧ (i a).val < win0_3.index t a * S1x32x512.size a + S1x32x512.size a := by
  show i ∈ ((View.whole main_v6).slice (win0_3.rect t)).set ↔ _
  rw [View.set_slice_whole, Rect.mem_set_unit]
  exact Iff.rfl

/-- The 32 blocks tile the array: index `i` is in the block of the point numbered by its first coordinate. -/
theorem cover_out (i : S32x32x512.Idx) :
    ∃ t : Fin cfg0.N, (cfg0.win 3).flush t = true ∧ i ∈ ((cfg0.win 3).blk t).view.set := by
  refine ⟨pt0 (i 0), flush0_3 _, ?_⟩
  rw [mem_blk_out]
  obtain ⟨e0, e1, e2⟩ := idx0_3 (pt0 (i 0))
  have q : (pt0 (i 0)).val = (i 0).val := rfl
  have b1 : (i 1).val < 32 := (i 1).isLt
  have b2 : (i 2).val < 512 := (i 2).isLt
  intro a
  match a with
  | ⟨0, _⟩ => show win0_3.index (pt0 (i 0)) (0 : Fin 3) * 1 ≤ (i 0).val ∧ (i 0).val < win0_3.index (pt0 (i 0)) (0 : Fin 3) * 1 + 1; omega
  | ⟨1, _⟩ => show win0_3.index (pt0 (i 0)) (1 : Fin 3) * 32 ≤ (i 1).val ∧ (i 1).val < win0_3.index (pt0 (i 0)) (1 : Fin 3) * 32 + 32; omega
  | ⟨2, _⟩ => show win0_3.index (pt0 (i 0)) (2 : Fin 3) * 512 ≤ (i 2).val ∧ (i 2).val < win0_3.index (pt0 (i 0)) (2 : Fin 3) * 512 + 512; omega

/-- The gathered embeddings are, block by block, what region 0's points wrote. -/
theorem parr_apply (c : Dev nD) (j : S32x32x512.Idx) :
    parr m ρ c j = outsAt0 (V1 m ρ) c (pt0 (j 0)) (ix3 0 (j 1) (j 2)) := by
  have h : parr m ρ c = gathered m ρ c :=
    (W2_arr m ρ c 3).trans ((dat0 (V1 m ρ) c).arrAt_eq_of_cover 3 (gathered m ρ c)
      (fun t _ => flushed_out m ρ c t) cover_out)
  exact congrFun h j

end Cert.TagLoss.Arrays

end
-- ==== Proof.Arrays1.lean ====
/-
  Region 1's side of the run's arrays: its input blocks are block `t` of the gathered embeddings and row `t` of the tags in
  either layout (the two reshapes of the tags between the regions move no element), and its one-element output block,
  written back once after the last grid point and reshaped to a scalar, is the result.
-/
import proofs.«423133_j4836133175850_1_alg».proof.Proof.Arrays0

noncomputable section

open scoped BigOperators

namespace Cert.TagLoss.Arrays

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg)

/-! ## The arrays region 1 is entered with -/

/-- The two reshapes between the regions write the two tag layouts only, so the gathered embeddings enter region 1 as
    region 0 left them. -/
theorem V3_v6 (c : Dev nD) : (V3 m ρ c main_v6 : Vec Ideal S32x32x512 .f32) = parr m ρ c :=
  StableHlo.after_of_forall_not_mem (b := Proc.devRef .tc main_v6) _ _ (List.forall_iff_forall_mem.mp (by
    simp only [hostOps1, List.Forall, StableHlo.reshape_writes, Finset.mem_singleton]
    repeat' apply And.intro
    all_goals exact StableHlo.devRef_ne_of_ne (by decide)))

/-- The tags at region 0's exit are the tags as launched: region 0 has no window on them, and the slices and reshapes before
    it write other arrays. -/
theorem W2_arg2 (c : Dev nD) : (W2 m ρ c (Proc.devRef .tc main_arg2) : Vec Ideal S32x512 .i32) = argT m c :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg2) := rfl

/-- The tags as a column `[32, 512, 1]`: the launched tags, reshaped. -/
theorem v7_eq (c : Dev nD) :
    (V3 m ρ c main_v7 : Vec Ideal S32x512x1 .i32) = shapeCast S32x512x1 (argT m c) shapeCasts_S32x512_S32x512x1 := by
  show StableHlo.after hostOps1 (W2 m ρ c) (Proc.devRef .tc main_v7) = _
  after_results
  rw [W2_arg2]
  rfl

/-- The tags as a row `[32, 1, 512]`: the launched tags, reshaped. -/
theorem v8_eq (c : Dev nD) :
    (V3 m ρ c main_v8 : Vec Ideal S32x1x512 .i32) = shapeCast S32x1x512 (argT m c) shapeCasts_S32x512_S32x1x512 := by
  show StableHlo.after hostOps1 (W2 m ρ c) (Proc.devRef .tc main_v8) = _
  after_results
  rw [W2_arg2]
  rfl

/-! ## Where each input window's block sits: at point `t` it is block `(t, 0, 0)` of its array -/

theorem idx1_0 : ∀ t : Fin cfg1.N, win1_0.index t (0 : Fin 3) = t.val ∧ win1_0.index t (1 : Fin 3) = 0 ∧ win1_0.index t (2 : Fin 3) = 0 :=
  (by decide +kernel : ∀ t : Fin grid1.N, _)

theorem idx1_1 : ∀ t : Fin cfg1.N, win1_1.index t (0 : Fin 3) = t.val ∧ win1_1.index t (1 : Fin 3) = 0 ∧ win1_1.index t (2 : Fin 3) = 0 :=
  (by decide +kernel : ∀ t : Fin grid1.N, _)

theorem idx1_2 : ∀ t : Fin cfg1.N, win1_2.index t (0 : Fin 3) = t.val ∧ win1_2.index t (1 : Fin 3) = 0 ∧ win1_2.index t (2 : Fin 3) = 0 :=
  (by decide +kernel : ∀ t : Fin grid1.N, _)

/-- Block `t` of the gathered embeddings. -/
theorem pblk_apply (c : Dev nD) (t : Fin cfg1.N) (y : S1x32x512.Idx) :
    pblk m ρ c t y = parr m ρ c (ix3 (img1 t) (y 1) (y 2)) := by
  obtain ⟨e0, e1, e2⟩ := idx1_0 t
  show V3 m ρ c main_v6 (((cfg1.win 0).blk t).view.emb y) = _
  rw [V3_v6]
  -- a coordinate of the block's element `y` in the array is block index × block extent + the coordinate inside the block
  refine congrArg (parr m ρ c) (funext fun a => Fin.ext ?_)
  match a with
  | ⟨0, _⟩ => show win1_0.index t (0 : Fin 3) * 1 + 1 * (y 0).val = t.val; have hy : (y 0).val < 1 := (y 0).isLt; omega
  | ⟨1, _⟩ => show win1_0.index t (1 : Fin 3) * 32 + 1 * (y 1).val = (y 1).val; omega
  | ⟨2, _⟩ => show win1_0.index t (2 : Fin 3) * 512 + 1 * (y 2).val = (y 2).val; omega
/-- Row `t` of the tags, as a column. -/
theorem tcblk_apply (c : Dev nD) (t : Fin cfg1.N) (y : S1x512x1.Idx) :
    tcblk m ρ c t y = argT m c (ix2 (img1 t) (y 1)) := by
  obtain ⟨e0, e1, e2⟩ := idx1_1 t
  show V3 m ρ c main_v7 (((cfg1.win 1).blk t).view.emb y) = _
  rw [v7_eq]
  -- element `(t, k, 0)` of the column layout and element `(t, k)` of the tags have the same row-major position `512 t + k`
  refine shapeCast_apply _ _ _ (ix2 (img1 t) (y 1)) ?_
  rw [Shape.rowMajor_val_two, Shape.rowMajor_val_three]
  show t.val * 512 + (y 1).val
    = ((win1_1.index t (0 : Fin 3) * 1 + 1 * (y 0).val) * 512 + (win1_1.index t (1 : Fin 3) * 512 + 1 * (y 1).val)) * 1
      + (win1_1.index t (2 : Fin 3) * 1 + 1 * (y 2).val)
  have h0 : (y 0).val < 1 := (y 0).isLt
  have h2 : (y 2).val < 1 := (y 2).isLt
  omega
/-- Row `t` of the tags, as a row. -/
theorem trblk_apply (c : Dev nD) (t : Fin cfg1.N) (y : S1x1x512.Idx) :
    trblk m ρ c t y = argT m c (ix2 (img1 t) (y 2)) := by
  obtain ⟨e0, e1, e2⟩ := idx1_2 t
  show V3 m ρ c main_v8 (((cfg1.win 2).blk t).view.emb y) = _
  rw [v8_eq]
  -- element `(t, 0, k)` of the row layout and element `(t, k)` of the tags have the same row-major position `512 t + k`
  refine shapeCast_apply _ _ _ (ix2 (img1 t) (y 2)) ?_
  rw [Shape.rowMajor_val_two, Shape.rowMajor_val_three]
  show t.val * 512 + (y 2).val
    = ((win1_2.index t (0 : Fin 3) * 1 + 1 * (y 0).val) * 1 + (win1_2.index t (1 : Fin 3) * 1 + 1 * (y 1).val)) * 512
      + (win1_2.index t (2 : Fin 3) * 512 + 1 * (y 2).val)
  have h0 : (y 0).val < 1 := (y 0).isLt
  have h1 : (y 1).val < 1 := (y 1).isLt
  omega

/-! ## The output: one block, the whole one-element array, written back at the last point only -/

/-- The last grid point of region 1. -/
abbrev tLast : Fin cfg1.N := ⟨31, by decide⟩

/-- What region 1's last point leaves in its output block, as contents of the one-element output array. -/
abbrev lastOut (c : Dev nD) : Vec Ideal S1x1 .f32 := outsAt1 (V3 m ρ) c 31 (by decide)

/-- The only point that writes the output back is the last, and what it writes is what it left; the block at offsets
    `(0, 0)` with the array's own extents is the whole array. -/
theorem flushed_last (c : Dev nD) (t : Fin cfg1.N) (hf : (cfg1.win 3).flush t = true) :
    (dat1 (V3 m ρ) c).flushed 3 t = ((cfg1.win 3).blk t).view.read (Elt Ideal) (lastOut m ρ c) := by
  have hN : cfg1.N = 32 := N_1
  have h31 : t.val = 31 := by have := (flush1_3 t).mp hf; have := t.isLt; omega
  obtain rfl : t = tLast := Fin.ext h31
  show (cfg1.win 3).cut (grid1.coords tLast) ((dat1 (V3 m ρ) c).after 3 tLast) = _
  rw [after1_3]
  have hz : (fun a => win1_3.index tLast a * main_v9.ty.shape.size a) = fun _ => 0 :=
    funext fun a => by
      match a with
      | ⟨0, _⟩ => exact (by decide +kernel : win1_3.index tLast (0 : Fin 2) * main_v9.ty.shape.size (0 : Fin 2) = 0)
      | ⟨1, _⟩ => exact (by decide +kernel : win1_3.index tLast (1 : Fin 2) * main_v9.ty.shape.size (1 : Fin 2) = 0)
  exact (Memref.read_access_unit_zero (Elt Ideal) main_v9 hz (fun a => by rw [congrFun hz a]; simp) (lastOut m ρ c)).symm

/-- So the output array ends holding what the last point left: that point's block covers its one index. -/
theorem arr_last (c : Dev nD) : (dat1 (V3 m ρ) c).arrAt 3 cfg1.N = lastOut m ρ c :=
  (dat1 (V3 m ρ) c).arrAt_eq_of_cover 3 (lastOut m ρ c) (flushed_last m ρ c) fun i =>
    ⟨tLast, (flush1_3 tLast).mpr rfl, by
      show i ∈ ((View.whole main_v9).slice (win1_3.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win1_3.index tLast 0 * win1_3.size 0 ≤ (i 0 : Nat) ∧ (i 0 : Nat) < win1_3.index tLast 0 * win1_3.size 0 + win1_3.xsize (grid1.coords tLast) 0
        rw [show win1_3.index tLast 0 * win1_3.size 0 = 0 from by decide +kernel, show win1_3.xsize (grid1.coords tLast) 0 = 1 from by decide +kernel]
        omega
      | ⟨1, _⟩ =>
        show win1_3.index tLast 1 * win1_3.size 1 ≤ (i 1 : Nat) ∧ (i 1 : Nat) < win1_3.index tLast 1 * win1_3.size 1 + win1_3.xsize (grid1.coords tLast) 1
        rw [show win1_3.index tLast 1 * win1_3.size 1 = 0 from by decide +kernel, show win1_3.xsize (grid1.coords tLast) 1 = 1 from by decide +kernel]
        omega⟩

/-- The result is the one element region 1's last point leaves. -/
theorem resv_eq (c : Dev nD) :
    resv m ρ c = fun _ => outsAt1 (V3 m ρ) c 31 (by decide) (ix2 0 0) := by
  show StableHlo.after hostOps2 (W4 m ρ c) (Proc.devRef .tc main_v10) = _
  after_results
  funext j
  show shapeCast S_ (W4 m ρ c (Proc.devRef .tc main_v9)) shapeCasts_S1x1_S_ j = _
  have hv : (W4 m ρ c (Proc.devRef .tc main_v9) : Vec Ideal S1x1 .f32) = lastOut m ρ c :=
    (W4_arr m ρ c 3).trans (arr_last m ρ c)
  rw [hv]
  -- the scalar's one index and the `[1, 1]` array's one index are both at row-major position 0
  refine shapeCast_apply _ _ j (ix2 0 0) ?_
  have ha : (S1x1.rowMajor (ix2 0 0)).val < 1 := lt_of_lt_of_eq (S1x1.rowMajor _).isLt (by decide)
  have hb : (S_.rowMajor j).val < 1 := lt_of_lt_of_eq (S_.rowMajor j).isLt (by decide)
  exact (Nat.lt_one_iff.mp ha).trans (Nat.lt_one_iff.mp hb).symm

end Cert.TagLoss.Arrays

end
-- ==== Proof.Spec.lean ====
/-
  The tag loss as ONE function of the three argument arrays.

  Per image `b`: keypoint `k`'s embedding is the embedding map at the keypoint's pixel,
  `P d k = e[b, d, row k, col k]` for each of the 32 channels `d`. From it
    gram k l = (∑ d, P d k · P d l) / 32,
    expo k l = (gram k k + gram l l) − 2 · gram k l      (the mean over channels of (P d k − P d l)², expanded),
    psim k l = 2 / (1 + exp (expo k l)),
    tsim k l = 1 if the two keypoints carry the same tag, else 0,
  the image's loss is the mean over the 512 × 512 pairs of (tsim − psim)², and the result is the mean of the 32
  images' losses. Everything is an extended real; the four literals are kept as the words both programs print.

  Two spellings of the last mean are stated: the quotient of the sum (`loss`) and the running sum of the
  quotients (`lossAcc`), one image per step.
-/
import Idealize.ShloMosaic.PureOps.Ideal
import Idealize.ShloMosaic.Lib.ValueIdx

noncomputable section

open scoped BigOperators

namespace Cert.TagLoss

open Idealize.ShloMosaic Idealize.ShloMosaic.ValueIdx

/-- The embedding maps `[32, 32, 256, 256]`, the keypoints `[32, 512, 2]` and the tags `[32, 512]`. -/
abbrev SE : Shape := ⟨4, ![32, 32, 256, 256]⟩
abbrev SK : Shape := ⟨3, ![32, 512, 2]⟩
abbrev ST : Shape := ⟨2, ![32, 512]⟩

/-- The literals 32, 2, 1 and 512 · 512 = 262144, as the f32 words both programs carry. -/
abbrev c32 : EReal := Ideal.ofBits .f32 0x42000000#32
abbrev c2 : EReal := Ideal.ofBits .f32 0x40000000#32
abbrev c1 : EReal := Ideal.ofBits .f32 0x3F800000#32
abbrev cKK : EReal := Ideal.ofBits .f32 0x48800000#32

/-- Every keypoint coordinate is a pixel index of the 256 × 256 map. -/
def InRange (kp : SK.Idx → BitVec 32) : Prop := ∀ i : SK.Idx, 0 ≤ (kp i).toInt ∧ (kp i).toInt < 256

/-! ## One image -/

section Image

variable (P : Fin 32 → Fin 512 → EReal) (T1 T2 : Fin 512 → BitVec 32)

/-- The channel mean of the product of two keypoints' embeddings. -/
def gramOf (k l : Fin 512) : EReal := Ideal.div (∑ d : Fin 32, P d k * P d l) c32
/-- The channel mean of the squared difference of two keypoints' embeddings, in its expanded form. -/
def expoOf (k l : Fin 512) : EReal := (gramOf P k k + gramOf P l l) - c2 * gramOf P k l
/-- The predicted similarity. -/
def psimOf (k l : Fin 512) : EReal := Ideal.div c2 (c1 + Ideal.exp (expoOf P k l))
/-- The true similarity: do keypoints `k` (tags read through `T1`) and `l` (through `T2`) carry one tag. -/
def tsimOf (k l : Fin 512) : EReal := if T1 k = T2 l then 1 else 0
/-- One pair's squared error. -/
def sqdiffOf (k l : Fin 512) : EReal := (tsimOf T1 T2 k l - psimOf P k l) * (tsimOf T1 T2 k l - psimOf P k l)
/-- The image's loss: the mean squared error over all pairs. -/
def imgLossOf : EReal := Ideal.div (∑ k : Fin 512, ∑ l : Fin 512, sqdiffOf P T1 T2 k l) cKK

end Image

/-! ## The batch -/

section Batch

variable (e : SE.Idx → EReal) (kp : SK.Idx → BitVec 32) (tg : ST.Idx → BitVec 32)

/-- Keypoint `k` of image `b`: its row (`a = 0`) or column (`a = 1`), read signed and kept inside the map. -/
def coord (b : Fin 32) (k : Fin 512) (a : Fin 2) : Fin 256 := ⟨min (kp (ix3 b k a)).toInt.toNat 255, by omega⟩
/-- The embedding of keypoint `k` of image `b`, channel `d`. -/
def emb (b : Fin 32) (d : Fin 32) (k : Fin 512) : EReal := e (ix4 b d (coord kp b k 0) (coord kp b k 1))
/-- Image `b`'s loss. -/
def imgLoss (b : Fin 32) : EReal := imgLossOf (fun d k => emb e kp b d k) (fun k => tg (ix2 b k)) (fun k => tg (ix2 b k))
/-- The loss: the mean of the images' losses, as the quotient of their sum. -/
def loss : EReal := Ideal.div (∑ b : Fin 32, imgLoss e kp tg b) c32

/-- Image `n`'s share of the mean (nothing past the last image). -/
def share (n : ℕ) : EReal := if h : n < 32 then Ideal.div (imgLoss e kp tg ⟨n, h⟩) c32 else 0
/-- The running sum of the shares after image `n`. -/
def lossAcc : ℕ → EReal
  | 0 => share e kp tg 0
  | n + 1 => lossAcc n + share e kp tg (n + 1)

end Batch

end Cert.TagLoss

end
-- ==== Proof.Region0Defs.lean ====
/-
  Region 0 (the gather) at one grid point, as pure functions of the point's three input blocks: the image block
  `x0 : [1, 32, 256, 256]`, the keypoints' rows `x1 : [1, 1, 512]` and columns `x2 : [1, 1, 512]`.

  The body clears a `[32, 512]` accumulator, then walks the image's 256 rows in 32 chunks of 8 rows; chunk `n` adds to the
  accumulator the product of the chunk, laid out `[32, 8 · 256]`, with the 0/1 selection matrix `[8 · 256, 512]` whose
  entry at (row r, column w; keypoint k) is 1 exactly when the keypoint's row is `8 n + r` and its column is `w`.
  After the last chunk the accumulator is stored as the output block.
-/
import proofs.«423133_j4836133175850_1_alg».proof.Proof.Gen.KernelIdeal.Frame
import proofs.«423133_j4836133175850_1_alg».proof.Proof.Spec

noncomputable section

open scoped BigOperators

namespace Cert.TagLoss.Region0

open Idealize.ShloMosaic Idealize.ShloMosaic.ValueIdx Cert.KernelIdeal Cert.KernelIdeal.Gen

variable {F : FTy → Type} [FloatOps F]

/-- The loop makes 32 trips. -/
theorem trips_eq : k0_t1_loop.trips = 32 := by decide

/-- Chunk `n` of the image block: its rows `8 n … 8 n + 7`. -/
def chunk (x0 : Vec F S1x32x256x256 .f32) (n : Fin 32) : Vec F S1x32x8x256 .f32 :=
  fun y => x0 (ix4 (y 0) (y 1) ⟨8 * n.val + (y 2).val, by have h2 : (y 2).val < 8 := (y 2).isLt; have hn : n.val < 32 := n.isLt; show 8 * n.val + (y 2).val < 256; omega⟩ (y 3))

/-- The accumulator after the first `n` chunks: cleared, then one payload per chunk over what the chunk before left. -/
def accN (x0 : Vec F S1x32x256x256 .f32) (x1 x2 : Vec F S1x1x512 .i32) : ℕ → FVec F S32x512 .f32
  | 0 => k0_pay1
  | n + 1 =>
    if h : n < 32 then k0_pay2 x1 x2 ⟨n, by rw [trips_eq]; exact h⟩ (chunk x0 ⟨n, h⟩) (accN x0 x1 x2 n)
    else accN x0 x1 x2 n

/-- The gather at block level: channel `d` of keypoint `k` is the image block at the keypoint's pixel. -/
def gatherBlk (x0 : Vec Ideal S1x32x256x256 .f32) (x1 x2 : Vec Ideal S1x1x512 .i32) : Vec Ideal S1x32x512 .f32 :=
  fun j => x0 (ix4 0 (j 1)
    ⟨min (x1 (ix3 0 0 (j 2))).toInt.toNat 255, by omega⟩
    ⟨min (x2 (ix3 0 0 (j 2))).toInt.toNat 255, by omega⟩)

/-- A block of 512 coordinates all of which are pixel indices. -/
def InRangeBlk (x : Vec Ideal S1x1x512 .i32) : Prop := ∀ k : Fin 512, 0 ≤ (x (ix3 0 0 k)).toInt ∧ (x (ix3 0 0 k)).toInt < 256

end Cert.TagLoss.Region0

end
-- ==== Proof.Region0Run.lean ====
/-
  What region 0's body leaves in its output block, read off the generated run: the store of the accumulator after the
  thirty-two chunks.
-/
import proofs.«423133_j4836133175850_1_alg».proof.Proof.Region0Defs
import Idealize.ShloMosaic.Lib.Pipeline.Value
import Idealize.ShloMosaic.Lib.Tactic

noncomputable section

open scoped BigOperators

namespace Cert.TagLoss.Region0

open Idealize.ShloMosaic Idealize.ShloMosaic.ValueIdx Cert.KernelIdeal Cert.KernelIdeal.Gen

variable {F : FTy → Type} [FloatOps F]

/-- The zero offsets of a two-axis and of a three-axis block, as constant functions. -/
theorem run0_hz2 : (![0, 0] : Fin 2 → Nat) = fun _ => 0 := funext fun a => by fin_cases a <;> rfl
theorem run0_hz3 : (![0, 0, 0] : Fin 3 → Nat) = fun _ => 0 := funext fun a => by fin_cases a <;> rfl

/-- One trip of the loop writes ONE piece: over the whole accumulator, the chunk payload of the eight image rows it
    loads and of the accumulator as the trip found it. -/
theorem run0_trip_piece (𝒱 : Variants) (bd : Option 𝒱.V) (c : Dev nD) (i : grid0.Coords) (arg1 : Memref sig .tc .vmem S1x32x256x256 .f32) (harg1 : arg1.IsWhole) (arg2 : Memref sig .tc .vmem S1x1x512 .i32) (harg2 : arg2.IsWhole) (arg3 : Memref sig .tc .vmem S1x1x512 .i32) (harg3 : arg3.IsWhole) (arg4 : Memref sig .tc .vmem S1x32x512 .f32) (harg4 : arg4.IsWhole) (arg5 : Memref sig .tc .vmem S32x512 .f32) (harg5 : arg5.IsWhole)
    (v4 v6 : Vec F S1x1x512 .i32) (X : BufTy.Contents (Elt F) arg1.view.ty) (k : Fin k0_t1_loop.trips)
    (f : BufTy.Contents (Elt F) arg5.view.ty) :
    (trip_k0_t1 (F := F) 𝒱 c bd i arg1 harg1 arg2 harg2 arg3 harg3 arg4 harg4 arg5 harg5 v4 v6 X k).1 f
      = [⟨Rect.unit (s := S32x512) ![0, 0] S32x512.size inb_S32x512_S32x512_0_0,
          k0_pay2 v4 v6 k
            (View.readAt (Elt F) arg1.view (Rect.unit (s := S1x32x256x256) (k0_off1 k) S1x32x8x256.size (k0_off1_inb k)).toLoadRect X)
            (View.readAt (Elt F) arg5.view (Rect.unit (s := S32x512) ![0, 0] S32x512.size inb_S32x512_S32x512_0_0).toLoadRect f)⟩] := by
  unfold trip_k0_t1
  rfl

/-- The eight rows a trip loads from the image block are that trip's chunk: the load's rectangle starts at row `8 k` and
    at zero on the other three axes, with unit strides. -/
theorem run0_load_chunk (arg1 : Memref sig .tc .vmem S1x32x256x256 .f32) (harg1 : arg1.IsWhole) (x0 : Vec F S1x32x256x256 .f32)
    (k : Fin k0_t1_loop.trips) (hk : k.val < 32) :
    View.readAt (Elt F) arg1.view (Rect.unit (s := S1x32x256x256) (k0_off1 k) S1x32x8x256.size (k0_off1_inb k)).toLoadRect (harg1.unread x0)
      = chunk x0 ⟨k.val, hk⟩ := by
  rw [View.readAt_eq_ld, harg1.read_unread]
  have h0 : k0_off1 k 0 = 0 := by rw [k0_off1_eq]; rfl
  have h1 : k0_off1 k 1 = 0 := by rw [k0_off1_eq]; rfl
  have h2 : k0_off1 k 2 = 8 * k.val := by rw [k0_off1_eq]; rfl
  have h3 : k0_off1 k 3 = 0 := by rw [k0_off1_eq]; rfl
  funext y
  show x0 _ = x0 _
  congr 1
  funext a
  apply Fin.ext
  match a with
  | ⟨0, _⟩ => show k0_off1 k 0 + 1 * (y 0).val = (y 0).val; rw [h0]; omega
  | ⟨1, _⟩ => show k0_off1 k 1 + 1 * (y 1).val = (y 1).val; rw [h1]; omega
  | ⟨2, _⟩ => show k0_off1 k 2 + 1 * (y 2).val = 8 * k.val + (y 2).val; rw [h2]; omega
  | ⟨3, _⟩ => show k0_off1 k 3 + 1 * (y 3).val = (y 3).val; rw [h3]; omega

/-- A store over the whole accumulator leaves its payload, whatever was there. -/
theorem run0_read_store_whole (v : View sig .tc .vmem S32x512 .f32) (f : BufTy.Contents (Elt F) v.ty) (w : Vec F S32x512 .f32) :
    v.read (Elt F) (v.writes (Elt F) f [⟨Rect.unit (s := S32x512) ![0, 0] S32x512.size inb_S32x512_S32x512_0_0, w⟩]) = w := by
  rw [View.read_writes_eq_canon _ _ _ (fun y => ⟨_, List.mem_singleton_self _, View.mem_set_unit_zero run0_hz2 inb_S32x512_S32x512_0_0 y⟩),
    View.canon_unit_zero run0_hz2]

/-- Starting from contents that read as the cleared accumulator, after the first `n` trips the accumulator reads
    `accN … n`: each trip overwrites it whole with its payload over what the trips before left. -/
theorem run0_scratch_after (𝒱 : Variants) (bd : Option 𝒱.V) (c : Dev nD) (i : grid0.Coords) (arg1 : Memref sig .tc .vmem S1x32x256x256 .f32) (harg1 : arg1.IsWhole) (arg2 : Memref sig .tc .vmem S1x1x512 .i32) (harg2 : arg2.IsWhole) (arg3 : Memref sig .tc .vmem S1x1x512 .i32) (harg3 : arg3.IsWhole) (arg4 : Memref sig .tc .vmem S1x32x512 .f32) (harg4 : arg4.IsWhole) (arg5 : Memref sig .tc .vmem S32x512 .f32) (harg5 : arg5.IsWhole)
    (x0 : Vec F S1x32x256x256 .f32) (x1 x2 : Vec F S1x1x512 .i32)
    (G : BufTy.Contents (Elt F) arg5.view.ty) (hG : arg5.view.read (Elt F) G = k0_pay1) :
    ∀ n : ℕ, n ≤ 32 →
      arg5.view.read (Elt F) (arg5.view.writes (Elt F) G
        (pb_k0_t1 (F := F) 𝒱 c bd i arg1 harg1 arg2 harg2 arg3 harg3 arg4 harg4 arg5 harg5 x1 x2 (harg1.unread x0) G n)) = accN x0 x1 x2 n
  | 0, _ => by
    rw [pb_k0_t1.eq_1, View.writes_nil]
    exact hG
  | n + 1, hn => by
    have h : n < 32 := hn
    have ih := run0_scratch_after 𝒱 bd c i arg1 harg1 arg2 harg2 arg3 harg3 arg4 harg4 arg5 harg5 x0 x1 x2 G hG n (Nat.le_of_lt h)
    have hs : pb_k0_t1 (F := F) 𝒱 c bd i arg1 harg1 arg2 harg2 arg3 harg3 arg4 harg4 arg5 harg5 x1 x2 (harg1.unread x0) G (n + 1) = _ :=
      pb_k0_t1_succ (F := F) 𝒱 c bd i arg1 harg1 arg2 harg2 arg3 harg3 arg4 harg4 arg5 harg5 x1 x2 (harg1.unread x0) G ⟨n, by rw [trips_eq]; exact h⟩
    rw [hs, View.writes_append]
    dsimp only [tripL_k0_t1]
    rw [run0_trip_piece, run0_read_store_whole, run0_load_chunk (hk := h), View.readAt_eq_ld, ih, View.ld_unit_zero run0_hz2]
    have e : accN x0 x1 x2 (n + 1)
        = k0_pay2 x1 x2 ⟨n, by rw [trips_eq]; exact h⟩ (chunk x0 ⟨n, h⟩) (accN x0 x1 x2 n) := by
      rw [accN, dif_pos h]
    exact e.symm

/-- The output block the run finds is the last payload over the accumulator after all 32 chunks. -/
theorem out0_eq_pay (c : Dev nD) (i : grid0.Coords) (arg1 : Memref sig .tc .vmem S1x32x256x256 .f32) (harg1 : arg1.IsWhole) (arg2 : Memref sig .tc .vmem S1x1x512 .i32) (harg2 : arg2.IsWhole) (arg3 : Memref sig .tc .vmem S1x1x512 .i32) (harg3 : arg3.IsWhole) (arg4 : Memref sig .tc .vmem S1x32x512 .f32) (harg4 : arg4.IsWhole) (arg5 : Memref sig .tc .vmem S32x512 .f32) (harg5 : arg5.IsWhole)
    (x0 : Vec F S1x32x256x256 .f32) (x1 : Vec F S1x1x512 .i32) (x2 : Vec F S1x1x512 .i32) :
    out0_A_3 (F := F) c i arg1 harg1 arg2 harg2 arg3 harg3 arg4 harg4 arg5 harg5 x0 x1 x2 = k0_pay3 (accN x0 x1 x2 32) := by
  unfold out0_A_3
  rw [View.read_writes_eq_canon _ _ _ (cover0_A_3 c i arg1 harg1 arg2 harg2 arg3 harg3 arg4 harg4 arg5 harg5 x0 x1 x2)]
  unfold kernelRun0_A
  dsimp only
  rw [View.canon_unit_zero run0_hz3]
  sl_unfold_words
  simp only [View.readAt_eq_ld, harg2.read_unread, harg3.read_unread, View.ld_unit_zero (S := S1x1x512) run0_hz3,
    View.ld_unit_zero (S := S32x512) run0_hz2]
  have ht : Scf.trips (0#32 : BitVec 32) (Scalar.addi 0#32 32#32) 1#32 = 32 := trips_eq
  rw [View.writes_append, ht]
  exact congrArg k0_pay3
    (run0_scratch_after Variants.none none c i arg1 harg1 arg2 harg2 arg3 harg3 arg4 harg4 arg5 harg5 x0 x1 x2 _ (run0_read_store_whole _ _ _) 32 (Nat.le_refl 32))

end Cert.TagLoss.Region0

end
-- ==== Proof.Select.lean ====
/-
  Sums against a 0/1 selector, on the extended reals. `x · 0 = 0` holds for EVERY extended real, the infinities included,
  so a sum of products whose second factors vanish off one index keeps exactly that index's term, and one whose second
  factors all vanish is zero; no finiteness of the first factors is needed.
-/
import Mathlib.Data.EReal.Operations
import Mathlib.Algebra.BigOperators.Group.Finset.Basic

noncomputable section

open scoped BigOperators

namespace Cert.TagLoss

/-- A selector that is 1 at `j₀` and 0 elsewhere, on the right of each product, keeps the term at `j₀`. -/
theorem sum_mul_select {ι : Type} [Fintype ι] [DecidableEq ι] (f : ι → EReal) (s : ι → EReal) (j₀ : ι)
    (h1 : s j₀ = 1) (h0 : ∀ j, j ≠ j₀ → s j = 0) : ∑ j, f j * s j = f j₀ := by
  rw [Finset.sum_eq_single j₀ (fun j _ hj => by rw [h0 j hj, mul_zero]) (fun h => absurd (Finset.mem_univ j₀) h), h1, mul_one]

/-- A selector that is 0 everywhere kills the sum. -/
theorem sum_mul_zero {ι : Type} [Fintype ι] (f : ι → EReal) (s : ι → EReal) (h0 : ∀ j, s j = 0) : ∑ j, f j * s j = 0 :=
  Finset.sum_eq_zero fun j _ => by rw [h0 j, mul_zero]

end Cert.TagLoss

end
-- ==== Proof.Region0Math.lean ====
/-
  The accumulated selection products are the gather: with every keypoint's row and column inside the map, exactly one
  (chunk, row in chunk, column) position carries a 1 for keypoint `k`, every other term of the 32 · 2048 products is
  `x · 0 = 0`, and the sum is the image block's entry at the keypoint's pixel.
-/
import proofs.«423133_j4836133175850_1_alg».proof.Proof.Region0Defs
import proofs.«423133_j4836133175850_1_alg».proof.Proof.Select
import Idealize.ShloMosaic.PureOps.Ideal.Laws
import Idealize.ShloMosaic.Lib.Pipeline.Value
import Idealize.ShloMosaic.Lib.ValueLayout

noncomputable section

open scoped BigOperators

namespace Cert.TagLoss.Region0

open Idealize.ShloMosaic Idealize.ShloMosaic.ValueIdx Cert.KernelIdeal Cert.KernelIdeal.Gen

/-! ## The product of the chunk with the selection matrix, read at an entry -/

theorem lhs_mm_0 (i : S32x512.Idx) (q : dot_S32x2048_S2048x512_S32x512_1_0_0_1_n_n.contr.Idx) :
    (dot_S32x2048_S2048x512_S32x512_1_0_0_1_n_n.lhsIdx i q 0).val = (i 0).val := by
  unfold DotDims.lhsIdx
  rw [dif_neg (show ¬(0 : Fin S32x2048.rank) ∈ dot_S32x2048_S2048x512_S32x512_1_0_0_1_n_n.lhsBatch by decide), dif_pos (show (0 : Fin S32x2048.rank) ∈ dot_S32x2048_S2048x512_S32x512_1_0_0_1_n_n.lhsNonContracting by decide)]
  rfl
theorem lhs_mm_1 (i : S32x512.Idx) (q : dot_S32x2048_S2048x512_S32x512_1_0_0_1_n_n.contr.Idx) :
    (dot_S32x2048_S2048x512_S32x512_1_0_0_1_n_n.lhsIdx i q 1).val = (q ⟨0, by decide⟩).val :=
  dot_S32x2048_S2048x512_S32x512_1_0_0_1_n_n.lhsIdx_val_of_single rfl i q
theorem rhs_mm_0 (i : S32x512.Idx) (q : dot_S32x2048_S2048x512_S32x512_1_0_0_1_n_n.contr.Idx) :
    (dot_S32x2048_S2048x512_S32x512_1_0_0_1_n_n.rhsIdx i q 0).val = (q ⟨0, by decide⟩).val :=
  dot_S32x2048_S2048x512_S32x512_1_0_0_1_n_n.rhsIdx_val_of_single rfl i q
theorem rhs_mm_1 (i : S32x512.Idx) (q : dot_S32x2048_S2048x512_S32x512_1_0_0_1_n_n.contr.Idx) :
    (dot_S32x2048_S2048x512_S32x512_1_0_0_1_n_n.rhsIdx i q 1).val = (i 1).val := by
  unfold DotDims.rhsIdx
  rw [dif_neg (show ¬(1 : Fin S2048x512.rank) ∈ dot_S32x2048_S2048x512_S32x512_1_0_0_1_n_n.rhsBatch by decide), dif_pos (show (1 : Fin S2048x512.rank) ∈ dot_S32x2048_S2048x512_S32x512_1_0_0_1_n_n.rhsNonContracting by decide)]
  rfl

/-- A `[32, 2048] × [2048, 512]` product into the zero array, at entry `(d, k)`: the sum over the 2048 positions. -/
theorem mm_apply (A : FVec Ideal S32x2048 .bf16) (B : FVec Ideal S2048x512 .bf16) (d : Fin 32) (k : Fin 512) :
    FloatOps.matmul dot_S32x2048_S2048x512_S32x512_1_0_0_1_n_n none A B (constant S32x512 .f32 0x00000000#32) (ix2 d k)
      = ∑ j : Fin 2048, A (ix2 d j) * B (ix2 j k) := by
  rw [Ideal.matmul_constant_zero_apply, ← Equiv.sum_comp (ValueIdx.contrEquiv1 dot_S32x2048_S2048x512_S32x512_1_0_0_1_n_n 2048 rfl rfl).symm]
  refine Finset.sum_congr rfl fun j _ => ?_
  have hk := ValueIdx.contrEquiv1_symm_val dot_S32x2048_S2048x512_S32x512_1_0_0_1_n_n 2048 rfl rfl j
  have el : dot_S32x2048_S2048x512_S32x512_1_0_0_1_n_n.lhsIdx (ix2 d k) ((ValueIdx.contrEquiv1 dot_S32x2048_S2048x512_S32x512_1_0_0_1_n_n 2048 rfl rfl).symm j) = ix2 d j := funext fun a => Fin.ext (by
    match a with
    | ⟨0, _⟩ => exact lhs_mm_0 _ _
    | ⟨1, _⟩ => exact (lhs_mm_1 _ _).trans hk)
  have er : dot_S32x2048_S2048x512_S32x512_1_0_0_1_n_n.rhsIdx (ix2 d k) ((ValueIdx.contrEquiv1 dot_S32x2048_S2048x512_S32x512_1_0_0_1_n_n 2048 rfl rfl).symm j) = ix2 j k := funext fun a => Fin.ext (by
    match a with
    | ⟨0, _⟩ => exact (rhs_mm_0 _ _).trans hk
    | ⟨1, _⟩ => exact rhs_mm_1 _ _)
  rw [el, er]

/-! ## Words: the comparison bit, widened and converted, is 1 or 0 -/

/-- A 32-bit word whose signed reading is non-negative reads the same unsigned. -/
theorem toNat_of_toInt_nonneg (y : BitVec 32) (h0 : 0 ≤ y.toInt) : y.toNat = y.toInt.toNat := by
  have h := BitVec.toInt_eq_toNat_cond y
  have hl := y.isLt
  split at h <;> omega

/-- The equality bit of the word `m` (below 256) and a word reading a pixel coordinate, widened to 32 bits and converted:
    1 when the coordinate is `m`, else 0. -/
theorem sel_word (m : ℕ) (hm : m < 256) (y : BitVec 32) (h0 : 0 ≤ y.toInt) (h1 : y.toInt < 256) :
    FloatOps.sitofp (F := Ideal) .f32 ((IntOp.cmpi .eq (BitVec.ofNat 32 m) y).setWidth 32)
      = if m = y.toInt.toNat then (1 : EReal) else 0 := by
  have hy := toNat_of_toInt_nonneg y h0
  by_cases h : m = y.toInt.toNat
  · have e : BitVec.ofNat 32 m = y := by
      apply BitVec.eq_of_toNat_eq
      rw [BitVec.toNat_ofNat, hy, ← h]
      exact Nat.mod_eq_of_lt (by omega)
    have hb : (BitVec.ofNat 32 m == y) = true := beq_iff_eq.mpr e
    rw [if_pos h]
    show (((BitVec.setWidth 32 (BitVec.ofBool (BitVec.ofNat 32 m == y))).toInt : ℝ) : EReal) = 1
    rw [hb]
    have : (BitVec.setWidth 32 (BitVec.ofBool true)).toInt = 1 := by decide
    rw [this]; norm_num
  · have e : ¬ BitVec.ofNat 32 m = y := by
      intro e
      apply h
      have := congrArg BitVec.toNat e
      rw [BitVec.toNat_ofNat, hy, Nat.mod_eq_of_lt (by omega)] at this
      exact this
    have hb : (BitVec.ofNat 32 m == y) = false := beq_eq_false_iff_ne.mpr e
    rw [if_neg h]
    show (((BitVec.setWidth 32 (BitVec.ofBool (BitVec.ofNat 32 m == y))).toInt : ℝ) : EReal) = 0
    rw [hb]
    have : (BitVec.setWidth 32 (BitVec.ofBool false)).toInt = 0 := by decide
    rw [this]; norm_num

/-- The chunk's first row as a word: trip `n` starts at row `8 n`; adding the row inside the chunk gives `8 n + r`. -/
theorem chunk_row_word (n : ℕ) (r : ℕ) :
    IntOp.addi (Scalar.muli (Scalar.addi (0#32) (Scalar.muli (Scf.iv 0#32 1#32 n) 1#32)) 8#32) (BitVec.ofNat 32 r)
      = BitVec.ofNat 32 (8 * n + r) := by
  apply BitVec.eq_of_toNat_eq
  simp only [IntOp.addi, Scalar.muli, Scalar.addi, IntOp.muli, Scf.iv, BitVec.toNat_add, BitVec.toNat_mul, BitVec.toNat_ofNat]
  omega

/-! ## The two operands of the product, read at an entry -/

/-- The chunk laid out `[32, 2048]`: position `j` of channel `d` is row `j / 256`, column `j % 256` of the chunk. -/
theorem lhs_apply (v24 : Vec Ideal S1x32x8x256 .f32) (d : Fin 32) (j : Fin 2048) :
    shapeCast S32x2048 (truncf (F := Ideal) FTy.bf16 (shapeCast S32x8x256 v24 shapeCasts_S1x32x8x256_S32x8x256) bitsLt_bf16_f32)
        shapeCasts_S32x8x256_S32x2048 (ix2 d j)
      = v24 (ix4 (0 : Fin 1) d ⟨j.val / 256, by omega⟩ ⟨j.val % 256, by omega⟩) := by
  rw [shapeCast_apply _ _ (ix2 d j) (ix3 d (⟨j.val / 256, by omega⟩ : Fin 8) (⟨j.val % 256, by omega⟩ : Fin 256)) (by
    rw [Shape.rowMajor_val_three, Shape.rowMajor_val_two]
    show (d.val * 8 + j.val / 256) * 256 + j.val % 256 = d.val * 2048 + j.val
    omega)]
  rw [truncf_apply]
  exact shapeCast_1abc_abc_apply v24 _ d _ _

/-- The selection matrix `[2048, 512]`: position `j`, keypoint `k` is the row selector at `j / 256` times the column
    selector at `j % 256`. -/
theorem rhs_apply (R : FVec Ideal S8x512 .bf16) (C : FVec Ideal S256x512 .bf16) (j : Fin 2048) (k : Fin 512) :
    shapeCast S2048x512
        (mulf (broadcastTo S8x256x512 (shapeCast S8x1x512 R shapeCasts_S8x512_S8x1x512) broadcasts_S8x1x512_S8x256x512)
          (broadcastTo S8x256x512 (shapeCast S1x256x512 C shapeCasts_S256x512_S1x256x512) broadcasts_S1x256x512_S8x256x512))
        shapeCasts_S8x256x512_S2048x512 (ix2 j k)
      = R (ix2 (⟨j.val / 256, by omega⟩ : Fin 8) k) * C (ix2 (⟨j.val % 256, by omega⟩ : Fin 256) k) := by
  rw [shapeCast_apply _ _ (ix2 j k) (ix3 (⟨j.val / 256, by omega⟩ : Fin 8) (⟨j.val % 256, by omega⟩ : Fin 256) k) (by
    rw [Shape.rowMajor_val_three, Shape.rowMajor_val_two]
    show (j.val / 256 * 256 + j.val % 256) * 512 + k.val = j.val * 512 + k.val
    omega)]
  rw [mulf_apply]
  congr 1
  · rw [broadcastTo_apply _ _ (ix3 (⟨j.val / 256, by omega⟩ : Fin 8) (⟨j.val % 256, by omega⟩ : Fin 256) k)
      (ix3 (⟨j.val / 256, by omega⟩ : Fin 8) (0 : Fin 1) k) (fun a => by
        match a with
        | ⟨0, _⟩ => rfl
        | ⟨1, _⟩ => rfl
        | ⟨2, _⟩ => rfl)]
    exact shapeCast_apply _ _ _ _ (by
      rw [Shape.rowMajor_val_three, Shape.rowMajor_val_two]
      show j.val / 256 * 512 + k.val = (j.val / 256 * 1 + 0) * 512 + k.val
      omega)
  · rw [broadcastTo_apply _ _ (ix3 (⟨j.val / 256, by omega⟩ : Fin 8) (⟨j.val % 256, by omega⟩ : Fin 256) k)
      (ix3 (0 : Fin 1) (⟨j.val % 256, by omega⟩ : Fin 256) k) (fun a => by
        match a with
        | ⟨0, _⟩ => rfl
        | ⟨1, _⟩ => rfl
        | ⟨2, _⟩ => rfl)]
    exact shapeCast_ab_1ab_apply C _ _ _ _

/-! ## The two selectors at an entry -/

/-- The row selector at row `r` of the chunk, keypoint `k`: the converted equality bit of the word `c + r` and the
    keypoint's row word. -/
theorem rowsel_word (x1 : Vec Ideal S1x1x512 .i32) (c : BitVec 32) (r : Fin 8) (k : Fin 512) :
    (truncf (F := Ideal) FTy.bf16
        (sitofp FTy.f32
          (extui 32
            (cmpi CmpIPredicate.eq
              (addi (broadcast S8x512 c) (iota Kind.tc S8x512 32 [0] iota_S8x512_d0_w32))
              (broadcastTo S8x512 (shapeCast S1x512 x1 shapeCasts_S1x1x512_S1x512) broadcasts_S1x512_S8x512))
            natLt_1_32))
        bitsLt_bf16_f32) (ix2 r k)
      = FloatOps.sitofp (F := Ideal) .f32
          ((IntOp.cmpi .eq (IntOp.addi c (BitVec.ofNat 32 r.val)) (x1 (ix3 (0 : Fin 1) (0 : Fin 1) k))).setWidth 32) := by
  rw [truncf_apply, sitofp_apply, extui_apply]
  show FloatOps.sitofp (F := Ideal) .f32
      ((IntOp.cmpi .eq (IntOp.addi (broadcast S8x512 c (ix2 r k)) (iota Kind.tc S8x512 32 [0] iota_S8x512_d0_w32 (ix2 r k)))
        (broadcastTo S8x512 (shapeCast S1x512 x1 shapeCasts_S1x1x512_S1x512) broadcasts_S1x512_S8x512 (ix2 r k))).setWidth 32) = _
  rw [broadcast_apply, iota_single_apply, broadcastTo_1b_ab_apply, shapeCast_1ab_ab_apply]

/-- The column selector at column `w`, keypoint `k`: the converted equality bit of the word `w` and the keypoint's
    column word. -/
theorem colsel_word (x2 : Vec Ideal S1x1x512 .i32) (w : Fin 256) (k : Fin 512) :
    (truncf (F := Ideal) FTy.bf16
        (sitofp FTy.f32
          (extui 32
            (cmpi CmpIPredicate.eq (iota Kind.tc S256x512 32 [0] iota_S256x512_d0_w32)
              (broadcastTo S256x512 (shapeCast S1x512 x2 shapeCasts_S1x1x512_S1x512) broadcasts_S1x512_S256x512))
            natLt_1_32))
        bitsLt_bf16_f32) (ix2 w k)
      = FloatOps.sitofp (F := Ideal) .f32
          ((IntOp.cmpi .eq (BitVec.ofNat 32 w.val) (x2 (ix3 (0 : Fin 1) (0 : Fin 1) k))).setWidth 32) := by
  rw [truncf_apply, sitofp_apply, extui_apply]
  show FloatOps.sitofp (F := Ideal) .f32
      ((IntOp.cmpi .eq (iota Kind.tc S256x512 32 [0] iota_S256x512_d0_w32 (ix2 w k))
        (broadcastTo S256x512 (shapeCast S1x512 x2 shapeCasts_S1x1x512_S1x512) broadcasts_S1x512_S256x512 (ix2 w k))).setWidth 32) = _
  rw [iota_single_apply, broadcastTo_1b_ab_apply, shapeCast_1ab_ab_apply]

/-! ## One chunk's payload at an entry -/

/-- The keypoint's row and column as naturals. -/
def rowOf (x1 : Vec Ideal S1x1x512 .i32) (k : Fin 512) : ℕ := (x1 (ix3 (0 : Fin 1) (0 : Fin 1) k)).toInt.toNat

/-- One chunk's payload at `(d, k)`: what was accumulated plus the sum, over the chunk's 2048 positions, of the chunk's
    entry times the product of the row selector and the column selector. -/
theorem pay2_sum (x1 x2 : Vec Ideal S1x1x512 .i32) (h1 : InRangeBlk x1) (h2 : InRangeBlk x2) (n : Fin k0_t1_loop.trips)
    (v24 : Vec Ideal S1x32x8x256 .f32) (v42 : Vec Ideal S32x512 .f32) (d : Fin 32) (k : Fin 512) :
    k0_pay2 (F := Ideal) x1 x2 n v24 v42 (ix2 d k)
      = v42 (ix2 d k) + ∑ j : Fin 2048, v24 (ix4 (0 : Fin 1) d ⟨j.val / 256, by omega⟩ ⟨j.val % 256, by omega⟩)
          * ((if 8 * n.val + j.val / 256 = rowOf x1 k then (1 : EReal) else 0) * (if j.val % 256 = rowOf x2 k then (1 : EReal) else 0)) := by
  have hn : n.val < 32 := lt_of_lt_of_eq n.isLt trips_eq
  unfold k0_pay2
  rw [shapeCast_self, addf_apply]
  simp only [matmul]
  rw [mm_apply]
  congr 1
  refine Finset.sum_congr rfl fun j _ => ?_
  rw [lhs_apply, rhs_apply, rowsel_word, colsel_word, chunk_row_word,
    sel_word _ (by omega) _ (h1 k).1 (h1 k).2, sel_word _ (by omega) _ (h2 k).1 (h2 k).2]
  rfl

/-- When the keypoint's row lies in chunk `n`, the one position `256 (row - 8 n) + col` carries a 1 and the payload adds
    the chunk's entry there. -/
theorem pay2_in (x1 x2 : Vec Ideal S1x1x512 .i32) (h1 : InRangeBlk x1) (h2 : InRangeBlk x2) (n : Fin k0_t1_loop.trips)
    (v24 : Vec Ideal S1x32x8x256 .f32) (v42 : Vec Ideal S32x512 .f32) (d : Fin 32) (k : Fin 512)
    (r : Fin 8) (w : Fin 256) (hr : 8 * n.val + r.val = rowOf x1 k) (hw : w.val = rowOf x2 k) :
    k0_pay2 (F := Ideal) x1 x2 n v24 v42 (ix2 d k) = v42 (ix2 d k) + v24 (ix4 (0 : Fin 1) d r w) := by
  rw [pay2_sum x1 x2 h1 h2]
  congr 1
  have hr8 := r.isLt
  have hw256 := w.isLt
  rw [Cert.TagLoss.sum_mul_select _ _ (⟨256 * r.val + w.val, by omega⟩ : Fin 2048)]
  · congr 1
    funext a
    match a with
    | ⟨0, _⟩ => rfl
    | ⟨1, _⟩ => rfl
    | ⟨2, _⟩ => exact Fin.ext (show (256 * r.val + w.val) / 256 = r.val by omega)
    | ⟨3, _⟩ => exact Fin.ext (show (256 * r.val + w.val) % 256 = w.val by omega)
  · show (if 8 * n.val + (256 * r.val + w.val) / 256 = rowOf x1 k then (1 : EReal) else 0)
        * (if (256 * r.val + w.val) % 256 = rowOf x2 k then (1 : EReal) else 0) = 1
    rw [if_pos (by omega), if_pos (by omega), mul_one]
  · intro j hj
    have hjne : j.val ≠ 256 * r.val + w.val := fun h => hj (Fin.ext h)
    have hjlt := j.isLt
    by_cases ha : 8 * n.val + j.val / 256 = rowOf x1 k
    · have hb : ¬ j.val % 256 = rowOf x2 k := by omega
      rw [if_neg hb, mul_zero]
    · rw [if_neg ha, zero_mul]

/-- When the keypoint's row lies outside chunk `n`, every row selector of the chunk is 0 and the payload adds nothing. -/
theorem pay2_out (x1 x2 : Vec Ideal S1x1x512 .i32) (h1 : InRangeBlk x1) (h2 : InRangeBlk x2) (n : Fin k0_t1_loop.trips)
    (v24 : Vec Ideal S1x32x8x256 .f32) (v42 : Vec Ideal S32x512 .f32) (d : Fin 32) (k : Fin 512)
    (hout : rowOf x1 k < 8 * n.val ∨ 8 * n.val + 8 ≤ rowOf x1 k) :
    k0_pay2 (F := Ideal) x1 x2 n v24 v42 (ix2 d k) = v42 (ix2 d k) := by
  rw [pay2_sum x1 x2 h1 h2, Cert.TagLoss.sum_mul_zero, add_zero]
  intro j
  have hjlt := j.isLt
  rw [if_neg (by omega), zero_mul]

/-! ## The accumulator after `n` chunks, and the stored block -/

/-- The cleared accumulator is zero everywhere. -/
theorem pay1_apply (d : Fin 32) (k : Fin 512) : (k0_pay1 (F := Ideal)) (ix2 d k) = 0 := by
  unfold k0_pay1
  rw [shapeCast_self, broadcast_apply]
  exact Ideal.ofBits_zero_f32

theorem rowOf_lt (x : Vec Ideal S1x1x512 .i32) (h : InRangeBlk x) (k : Fin 512) : rowOf x k < 256 := by
  have := h k
  unfold rowOf
  omega

/-- After the first `n` chunks the accumulator at `(d, k)` holds the image block's entry at the keypoint's pixel when
    the keypoint's row is among the first `8 n` rows, and zero otherwise. -/
theorem accN_apply (x0 : Vec Ideal S1x32x256x256 .f32) (x1 x2 : Vec Ideal S1x1x512 .i32)
    (h1 : InRangeBlk x1) (h2 : InRangeBlk x2) (d : Fin 32) (k : Fin 512) :
    ∀ n : ℕ, n ≤ 32 → accN x0 x1 x2 n (ix2 d k)
      = if rowOf x1 k < 8 * n then
          x0 (ix4 (0 : Fin 1) d ⟨min (rowOf x1 k) 255, by omega⟩ ⟨min (rowOf x2 k) 255, by omega⟩)
        else 0 := by
  have hrow := rowOf_lt x1 h1 k
  have hcol := rowOf_lt x2 h2 k
  intro n
  induction n with
  | zero =>
    intro _
    rw [if_neg (by omega)]
    exact pay1_apply d k
  | succ n ih =>
    intro hn
    have hn' : n < 32 := by omega
    have ih' := ih (by omega)
    rw [accN, dif_pos hn']
    by_cases hin : 8 * n ≤ rowOf x1 k ∧ rowOf x1 k < 8 * n + 8
    · rw [pay2_in x1 x2 h1 h2 _ _ _ d k (⟨rowOf x1 k - 8 * n, by omega⟩ : Fin 8) (⟨rowOf x2 k, hcol⟩ : Fin 256)
        (by show 8 * n + (rowOf x1 k - 8 * n) = rowOf x1 k; omega) rfl, ih', if_neg (by omega), if_pos (by omega), zero_add]
      show x0 (ix4 (0 : Fin 1) d ⟨8 * n + (rowOf x1 k - 8 * n), _⟩ ⟨rowOf x2 k, _⟩) = _
      congr 1
      funext a
      match a with
      | ⟨0, _⟩ => rfl
      | ⟨1, _⟩ => rfl
      | ⟨2, _⟩ => exact Fin.ext (show 8 * n + (rowOf x1 k - 8 * n) = min (rowOf x1 k) 255 by omega)
      | ⟨3, _⟩ => exact Fin.ext (show rowOf x2 k = min (rowOf x2 k) 255 by omega)
    · rw [pay2_out x1 x2 h1 h2 _ _ _ d k (by show rowOf x1 k < 8 * n ∨ 8 * n + 8 ≤ rowOf x1 k; omega), ih']
      by_cases hlt : rowOf x1 k < 8 * n
      · rw [if_pos hlt, if_pos (by omega)]
      · rw [if_neg hlt, if_neg (by omega)]

/-- The stored block is the accumulator with a leading unit axis. -/
theorem pay3_apply (v : Vec Ideal S32x512 .f32) (u : Fin 1) (d : Fin 32) (k : Fin 512) :
    k0_pay3 (F := Ideal) v (ix3 u d k) = v (ix2 d k) := by
  unfold k0_pay3
  exact shapeCast_ab_1ab_apply v _ u d k

/-- The stored block is the gather of the image block at the keypoints' pixels. -/
theorem pay_eq_gather (x0 : Vec Ideal S1x32x256x256 .f32) (x1 x2 : Vec Ideal S1x1x512 .i32)
    (h1 : InRangeBlk x1) (h2 : InRangeBlk x2) :
    k0_pay3 (F := Ideal) (accN x0 x1 x2 32) = gatherBlk x0 x1 x2 := by
  funext j
  obtain ⟨u, d, k, rfl⟩ : ∃ (u : Fin 1) (d : Fin 32) (k : Fin 512), j = ix3 u d k := ⟨j 0, j 1, j 2, eq_ix3 j⟩
  rw [pay3_apply, accN_apply x0 x1 x2 h1 h2 d k 32 le_rfl, if_pos (by have := rowOf_lt x1 h1 k; omega)]
  rfl

end Cert.TagLoss.Region0

end
-- ==== Proof.Region1Run.lean ====
/-
  What region 1's body leaves in its one-element output block, read off the generated run, in each of its two cases:
  at the first grid point the block is cleared and the image's share added to the cleared value; at every later point the
  share is added to what the point before left.
-/
import proofs.«423133_j4836133175850_1_alg».proof.Proof.Gen.KernelIdeal.Frame
import Idealize.ShloMosaic.Lib.ValueIdx
import Idealize.ShloMosaic.Lib.Pipeline.Value

noncomputable section

open scoped BigOperators

namespace Cert.TagLoss.Region1

open Idealize.ShloMosaic Idealize.ShloMosaic.TcCoe Idealize.ShloMosaic.ValueIdx Cert.KernelIdeal Cert.KernelIdeal.Gen

variable {F : FTy → Type} [FloatOps F]

/-- Two zero offsets, written as a literal pair, are the constant zero. -/
theorem hz11 : (![0, 0] : Fin 2 → Nat) = fun _ => 0 := funext fun a => by fin_cases a <;> rfl

/-- Three zero offsets, written as a literal triple, are the constant zero. -/
theorem hz111 : (![0, 0, 0] : Fin 3 → Nat) = fun _ => 0 := funext fun a => by fin_cases a <;> rfl

/-- First point: the share is added to the cleared block. -/
theorem out1_A_eq (c : Dev nD) (i : grid1.Coords) (arg1 : Memref sig .tc .vmem S1x32x512 .f32) (harg1 : arg1.IsWhole) (arg2 : Memref sig .tc .vmem S1x512x1 .i32) (harg2 : arg2.IsWhole) (arg3 : Memref sig .tc .vmem S1x1x512 .i32) (harg3 : arg3.IsWhole) (arg4 : Memref sig .tc .vmem S1x1 .f32) (harg4 : arg4.IsWhole) (hc0 : cond1_0 i)
    (x0 : Vec F S1x32x512 .f32) (x1 : Vec F S1x512x1 .i32) (x2 : Vec F S1x1x512 .i32) :
    out1_A_3 (F := F) c i arg1 harg1 arg2 harg2 arg3 harg3 arg4 harg4 hc0 x0 x1 x2 = k1_pay1 (k1_pay3 x0 x1 x2) (k1_pay2 (F := F)) := by
  unfold out1_A_3
  rw [View.read_writes_eq_canon _ _ _ (cover1_A_3 c i arg1 harg1 arg2 harg2 arg3 harg3 arg4 harg4 hc0 x0 x1 x2)]
  unfold kernelRun1_A
  dsimp only
  sl_unfold_words
  rw [View.canon_cons_unit_zero (S := S1x1) hz11, View.readCov_unit_zero (S := S1x1) _ hz11]
  simp only [View.readAt_eq_ld, harg1.read_unread, harg2.read_unread, harg3.read_unread,
    View.ld_unit_zero (S := S1x32x512) hz111, View.ld_unit_zero (S := S1x512x1) hz111,
    View.ld_unit_zero (S := S1x1x512) hz111]

/-- Later points: the share is added to the block's running contents. -/
theorem out1_B_eq (c : Dev nD) (i : grid1.Coords) (arg1 : Memref sig .tc .vmem S1x32x512 .f32) (harg1 : arg1.IsWhole) (arg2 : Memref sig .tc .vmem S1x512x1 .i32) (harg2 : arg2.IsWhole) (arg3 : Memref sig .tc .vmem S1x1x512 .i32) (harg3 : arg3.IsWhole) (arg4 : Memref sig .tc .vmem S1x1 .f32) (harg4 : arg4.IsWhole) (hc0 : ¬cond1_0 i)
    (x0 : Vec F S1x32x512 .f32) (x1 : Vec F S1x512x1 .i32) (x2 : Vec F S1x1x512 .i32) (xo3 : Vec F S1x1 .f32) :
    out1_B_3 (F := F) c i arg1 harg1 arg2 harg2 arg3 harg3 arg4 harg4 hc0 x0 x1 x2 xo3 = k1_pay1 (k1_pay3 x0 x1 x2) xo3 := by
  unfold out1_B_3
  rw [View.read_writes_eq_canon _ _ _ (cover1_B_3 c i arg1 harg1 arg2 harg2 arg3 harg3 arg4 harg4 hc0 x0 x1 x2 xo3)]
  unfold kernelRun1_B
  dsimp only
  sl_unfold_words
  rw [View.canon_unit_zero (S := S1x1) hz11]
  simp only [View.readAt_eq_ld, harg1.read_unread, harg2.read_unread, harg3.read_unread, harg4.read_unread,
    View.ld_unit_zero (S := S1x32x512) hz111, View.ld_unit_zero (S := S1x512x1) hz111,
    View.ld_unit_zero (S := S1x1x512) hz111, View.ld_unit_zero (S := S1x1) hz11]

end Cert.TagLoss.Region1

end
-- ==== Proof.LibLayoutColumn.lean ====
/-
  Layout operations on a column, read at an index: the forms a "sum the rows, keep the axis" computation meets.

  A vector of length `a` viewed as an `[a, 1]` column, a column broadcast across `b` lanes, a column placed under a
  leading unit axis, an array with two leading unit axes flattened, and the all-unit shapes a reduction to one element
  passes through.  Each reads the operand at the index with the same row-major position (a cast) or at the index with
  the unit axes at zero (a broadcast).  Last, a sum over the indices of a `[1, a, 1]` array is the sum over its one
  free coordinate.  Every statement holds at any extents.
-/
import Idealize.ShloMosaic.Lib.ValueIdx
import Idealize.ShloMosaic.Lib.Pipeline.Value

noncomputable section

open scoped BigOperators

namespace Idealize.ShloMosaic.ValueIdx

open Idealize.ShloMosaic

variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- An `[a]` array cast to an `[a, 1]` column reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[1, a, 1]` reads, at `(u, p, w)`, the operand at `(p, 0)`. -/
theorem shapeCast_a1_1a1_apply {a : ℕ} (x : (⟨2, ![a, 1]⟩ : Shape).Idx → α)
    (h : (⟨2, ![a, 1]⟩ : Shape).ShapeCasts ⟨3, ![1, a, 1]⟩) (u : Fin 1) (p : Fin a) (w : Fin 1) :
    shapeCast ⟨3, ![1, a, 1]⟩ x h (ix3 u p w) = x (ix2 p (0 : Fin 1)) :=
  shapeCast_apply x h _ _ (by
    have hu : u.val = 0 := by omega
    have hw : w.val = 0 := by omega
    rw [Shape.rowMajor_val_three, Shape.rowMajor_val_two]
    show p.val * 1 + 0 = (u.val * a + p.val) * 1 + w.val
    rw [hu, hw, Nat.zero_mul, Nat.zero_add])

/-- A one-element array cast to `[1, 1, 1]` reads its one element. -/
theorem shapeCast_1_111_apply (x : (⟨1, ![1]⟩ : Shape).Idx → α)
    (h : (⟨1, ![1]⟩ : Shape).ShapeCasts ⟨3, ![1, 1, 1]⟩) (u v w : Fin 1) :
    shapeCast ⟨3, ![1, 1, 1]⟩ x h (ix3 u v w) = x (ix1 (0 : Fin 1)) :=
  shapeCast_apply x h _ _ (by
    have hu : u.val = 0 := by omega
    have hv : v.val = 0 := by omega
    have hw : w.val = 0 := by omega
    rw [Shape.rowMajor_val_three, Shape.rowMajor_val_one]
    show 0 = (u.val * 1 + v.val) * 1 + w.val
    rw [hu, hv, hw])

/-- A `[1, 1]` array cast to `[1, 1, 1]` reads its one element. -/
theorem shapeCast_11_111_apply (x : (⟨2, ![1, 1]⟩ : Shape).Idx → α)
    (h : (⟨2, ![1, 1]⟩ : Shape).ShapeCasts ⟨3, ![1, 1, 1]⟩) (u v w : Fin 1) :
    shapeCast ⟨3, ![1, 1, 1]⟩ x h (ix3 u v w) = x (ix2 (0 : Fin 1) (0 : Fin 1)) :=
  shapeCast_apply x h _ _ (by
    have hu : u.val = 0 := by omega
    have hv : v.val = 0 := by omega
    have hw : w.val = 0 := by omega
    rw [Shape.rowMajor_val_three, Shape.rowMajor_val_two]
    show 0 * 1 + 0 = (u.val * 1 + v.val) * 1 + w.val
    rw [hu, hv, hw])

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, 1]` array broadcast to `[1, 1, b]` reads its one element in every lane. -/
theorem broadcastTo_111_11b_apply {b : ℕ} (v : (⟨3, ![1, 1, 1]⟩ : Shape).Idx → α)
    (h : (⟨3, ![1, 1, 1]⟩ : Shape).Broadcasts ⟨3, ![1, 1, b]⟩) (u w : Fin 1) (l : Fin b) :
    broadcastTo ⟨3, ![1, 1, b]⟩ v h (ix3 u w l) = v (ix3 (0 : Fin 1) (0 : Fin 1) (0 : Fin 1)) := by
  refine broadcastTo_apply v h (ix3 u w l) (ix3 (0 : Fin 1) (0 : Fin 1) (0 : Fin 1)) fun ax => ?_
  match ax with
  | ⟨0, _⟩ => rfl
  | ⟨1, _⟩ => rfl
  | ⟨2, _⟩ => rfl

/-- The indices of a `[1, a, 1]` array are its one free coordinate … -/
def idxEquiv1a1 {a : ℕ} : (⟨3, ![1, a, 1]⟩ : Shape).Idx ≃ Fin a where
  toFun i := i 1
  invFun p := ix3 (0 : Fin 1) p (0 : Fin 1)
  left_inv i := by
    funext ax
    match ax with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- … so a sum over them is the sum over that coordinate. -/
theorem sum_idx_1a1 {M : Type*} [AddCommMonoid M] {a : ℕ} (f : (⟨3, ![1, a, 1]⟩ : Shape).Idx → M) :
    ∑ i, f i = ∑ p : Fin a, f (ix3 (0 : Fin 1) p (0 : Fin 1)) := by
  rw [← Equiv.sum_comp (idxEquiv1a1 (a := a)).symm f]
  rfl

end Idealize.ShloMosaic.ValueIdx

end
-- ==== Proof.Region1Math.lean ====
/-
  Region 1's arithmetic at one grid point, over the extended reals: from the image's gathered embeddings `p : [1, 32, 512]`
  and its tags in column and row layout, the stored value is the block's previous value plus the image's loss over 32.
  The kernel takes the squared norms off the diagonal of the gram matrix through a 0/1 mask and two lane sums; a masked
  sum keeps exactly its diagonal term.
-/
import proofs.«423133_j4836133175850_1_alg».proof.Proof.Gen.KernelIdeal.Skeleton
import proofs.«423133_j4836133175850_1_alg».proof.Proof.Spec
import proofs.«423133_j4836133175850_1_alg».proof.Proof.Select
import proofs.«423133_j4836133175850_1_alg».proof.Proof.LibLayoutColumn
import Idealize.ShloMosaic.PureOps.Ideal.Laws
import Idealize.ShloMosaic.Lib.Pipeline.Value
import Idealize.ShloMosaic.Lib.ValueLayout

noncomputable section

open scoped BigOperators

namespace Cert.TagLoss.Region1

open Idealize.ShloMosaic Idealize.ShloMosaic.TcCoe Idealize.ShloMosaic.ValueIdx Cert.KernelIdeal Cert.KernelIdeal.Gen

/-! ### The gram product: both operands contract their channel axis

Where the product reads its two operands, axis by axis, at an output position and a channel. -/

theorem lhs_gram_0 (i : S512x512.Idx) (q : dot_S32x512_S32x512_S512x512_0_0_1_1_n_n.contr.Idx) :
    (dot_S32x512_S32x512_S512x512_0_0_1_1_n_n.lhsIdx i q 0).val = (q ⟨0, by decide⟩).val :=
  dot_S32x512_S32x512_S512x512_0_0_1_1_n_n.lhsIdx_val_of_single rfl i q
theorem lhs_gram_1 (i : S512x512.Idx) (q : dot_S32x512_S32x512_S512x512_0_0_1_1_n_n.contr.Idx) :
    (dot_S32x512_S32x512_S512x512_0_0_1_1_n_n.lhsIdx i q 1).val = (i 0).val := by
  unfold DotDims.lhsIdx
  rw [dif_neg (show ¬(1 : Fin S32x512.rank) ∈ dot_S32x512_S32x512_S512x512_0_0_1_1_n_n.lhsBatch by decide), dif_pos (show (1 : Fin S32x512.rank) ∈ dot_S32x512_S32x512_S512x512_0_0_1_1_n_n.lhsNonContracting by decide)]
  rfl
theorem rhs_gram_0 (i : S512x512.Idx) (q : dot_S32x512_S32x512_S512x512_0_0_1_1_n_n.contr.Idx) :
    (dot_S32x512_S32x512_S512x512_0_0_1_1_n_n.rhsIdx i q 0).val = (q ⟨0, by decide⟩).val :=
  dot_S32x512_S32x512_S512x512_0_0_1_1_n_n.rhsIdx_val_of_single rfl i q
theorem rhs_gram_1 (i : S512x512.Idx) (q : dot_S32x512_S32x512_S512x512_0_0_1_1_n_n.contr.Idx) :
    (dot_S32x512_S32x512_S512x512_0_0_1_1_n_n.rhsIdx i q 1).val = (i 1).val := by
  unfold DotDims.rhsIdx
  rw [dif_neg (show ¬(1 : Fin S32x512.rank) ∈ dot_S32x512_S32x512_S512x512_0_0_1_1_n_n.rhsBatch by decide), dif_pos (show (1 : Fin S32x512.rank) ∈ dot_S32x512_S32x512_S512x512_0_0_1_1_n_n.rhsNonContracting by decide)]
  rfl

/-- The product into a zero accumulator, at row k and column l, is the sum over the channels. -/
theorem matmul_gram_apply (x : FVec Ideal S32x512 .bf16) (k l : Fin 512) :
    matmul dot_S32x512_S32x512_S512x512_0_0_1_1_n_n none x x (constant (F := Ideal) S512x512 .f32 0x00000000#32) (ix2 k l)
      = ∑ d : Fin 32, x (ix2 d k) * x (ix2 d l) := by
  simp only [matmul]
  rw [Ideal.matmul_constant_zero_apply, ← Equiv.sum_comp (contrEquiv1 dot_S32x512_S32x512_S512x512_0_0_1_1_n_n 32 rfl rfl).symm]
  refine Finset.sum_congr rfl fun d _ => ?_
  have hd := contrEquiv1_symm_val dot_S32x512_S32x512_S512x512_0_0_1_1_n_n 32 rfl rfl d
  have el : dot_S32x512_S32x512_S512x512_0_0_1_1_n_n.lhsIdx (ix2 k l) ((contrEquiv1 dot_S32x512_S32x512_S512x512_0_0_1_1_n_n 32 rfl rfl).symm d) = ix2 d k := funext fun a => Fin.ext (by
    match a with
    | ⟨0, _⟩ => exact (lhs_gram_0 _ _).trans hd
    | ⟨1, _⟩ => exact lhs_gram_1 _ _)
  have er : dot_S32x512_S32x512_S512x512_0_0_1_1_n_n.rhsIdx (ix2 k l) ((contrEquiv1 dot_S32x512_S32x512_S512x512_0_0_1_1_n_n 32 rfl rfl).symm d) = ix2 d l := funext fun a => Fin.ext (by
    match a with
    | ⟨0, _⟩ => exact (rhs_gram_0 _ _).trans hd
    | ⟨1, _⟩ => exact rhs_gram_1 _ _)
  rw [el, er]

/-! ### The kernel's intermediate values, named -/

section Values

variable (p : Vec Ideal S1x32x512 .f32) (t1 : Vec Ideal S1x512x1 .i32) (t2 : Vec Ideal S1x1x512 .i32)

/-- The embeddings with the block's unit axis dropped, in the product's operand format. -/
def embV : FVec Ideal S32x512 .bf16 :=
  truncf .bf16 (shapeCast S32x512 p shapeCasts_S1x32x512_S32x512 : FVec Ideal S32x512 .f32) bitsLt_bf16_f32

/-- The gram matrix over 32. -/
def gramV : FVec Ideal S512x512 .f32 :=
  divf (matmul dot_S32x512_S32x512_S512x512_0_0_1_1_n_n none (embV p) (embV p) (constant S512x512 .f32 0x00000000#32))
    (broadcast S512x512 (Scalar.ofBits .f32 0x42000000#32))

/-- The diagonal's 0/1 mask. -/
def maskV : FVec Ideal S512x512 .f32 :=
  sitofp .f32 (extui 32 (cmpi .eq (iota .tc S512x512 32 [0] iota_S512x512_d0_w32) (iota .tc S512x512 32 [1] iota_S512x512_d1_w32)) natLt_1_32)

/-- The gram matrix with everything off the diagonal zeroed. -/
def diagV : FVec Ideal S512x512 .f32 := mulf (gramV p) maskV

/-- Its column sums and its row sums: the squared norms, twice. -/
def colSumV : FVec Ideal S512 .f32 :=
  multiReduction (F := Ideal) .add [0] S512 (diagV p) 0x00000000#32 reduces_S512x512_S512 (.inl rfl) rfl
def rowSumV : FVec Ideal S512 .f32 :=
  multiReduction (F := Ideal) .add [1] S512 (diagV p) 0x00000000#32 reduces_S512x512_S512_2 (.inl rfl) rfl

/-- The exponent: the two squared norms less twice the gram entry. -/
def expoV : FVec Ideal S512x512 .f32 :=
  subf
    (addf (broadcastTo S512x512 (shapeCast S512x1 (rowSumV p) shapeCasts_S512_S512x1 : FVec Ideal S512x1 .f32) broadcasts_S512x1_S512x512)
      (broadcastTo S512x512 (shapeCast S1x512 (colSumV p) shapeCasts_S512_S1x512 : FVec Ideal S1x512 .f32) broadcasts_S1x512_S512x512))
    (mulf (broadcast S512x512 (Scalar.ofBits .f32 0x40000000#32)) (gramV p))

/-- The predicted similarity. -/
def psimV : FVec Ideal S512x512 .f32 :=
  divf (broadcast S512x512 (Scalar.ofBits .f32 0x40000000#32))
    (addf (broadcast S512x512 (Scalar.ofBits .f32 0x3F800000#32)) (exp (expoV p)))

/-- The true similarity: equal tag words. -/
def tsimV : FVec Ideal S512x512 .f32 :=
  sitofp .f32 (extui 32 (cmpi .eq
    (broadcastTo S512x512 (shapeCast S512x1 t1 shapeCasts_S1x512x1_S512x1 : IVec S512x1 32) broadcasts_S512x1_S512x512)
    (broadcastTo S512x512 (shapeCast S1x512 t2 shapeCasts_S1x1x512_S1x512 : IVec S1x512 32) broadcasts_S1x512_S512x512)) natLt_1_32)

/-- The first payload is the difference of the two similarities. -/
theorem pay3_eq : k1_pay3 (F := Ideal) p t1 t2 = subf (tsimV t1 t2) (psimV p) := rfl

end Values

/-! ### Words: a comparison's bit, widened and converted, is a 0/1 extended real -/

theorem sitofp_ofBool (c : Bool) :
    FloatOps.sitofp (F := Ideal) .f32 ((BitVec.ofBool c).setWidth 32) = if c then (1 : EReal) else 0 := by
  have h : ∀ b : BitVec 32, FloatOps.sitofp (F := Ideal) .f32 b = ((b.toInt : ℝ) : EReal) := fun _ => rfl
  rw [h]
  cases c
  · have e : ((BitVec.ofBool false).setWidth 32).toInt = 0 := by decide
    rw [e]; simp
  · have e : ((BitVec.ofBool true).setWidth 32).toInt = 1 := by decide
    rw [e]; simp

theorem sitofp_cmp_eq (x y : BitVec 32) :
    FloatOps.sitofp (F := Ideal) .f32 ((IntOp.cmpi .eq x y).setWidth 32) = if x = y then (1 : EReal) else 0 := by
  show FloatOps.sitofp (F := Ideal) .f32 ((BitVec.ofBool (x == y)).setWidth 32) = _
  rw [sitofp_ofBool]
  by_cases h : x = y <;> simp [h]

/-- Two positions below 512 have the same 32-bit word exactly when they are equal. -/
theorem word_eq_iff (k l : Fin 512) : BitVec.ofNat 32 k.val = BitVec.ofNat 32 l.val ↔ k = l := by
  constructor
  · intro h
    have h' := congrArg BitVec.toNat h
    simp only [BitVec.toNat_ofNat] at h'
    have hk := k.isLt
    have hl := l.isLt
    exact Fin.ext (by omega)
  · rintro rfl; rfl

theorem exp_apply {s : Shape} {φ : FTy} (x : FVec Ideal s φ) (i : s.Idx) : exp x i = Ideal.exp (x i) := rfl
theorem cmpi_apply {s : Shape} {w : ℕ} (q : CmpIPredicate) (x y : IVec s w) (i : s.Idx) : cmpi q x y i = IntOp.cmpi q (x i) (y i) := rfl

/-! ### Lane sums at an index -/

/-- Summing a square matrix down its columns. -/
theorem lane_sum0 (src : FVec Ideal S512x512 .f32) (l : Fin 512) :
    multiReduction (F := Ideal) .add [0] S512 src 0x00000000#32 reduces_S512x512_S512 (.inl rfl) rfl (ix1 l)
      = ∑ k : Fin 512, src (ix2 k l) := by
  refine (Ideal.multiReduction_add_single src 0x00000000#32 reduces_S512x512_S512 (.inl rfl) rfl (ix1 l)).trans ?_
  refine Finset.sum_congr rfl fun k _ => congrArg src ?_
  funext a
  match a with
  | ⟨0, _⟩ => exact Fin.ext rfl
  | ⟨1, _⟩ => exact Fin.ext rfl

/-- Summing a square matrix along its rows. -/
theorem lane_sum1 (src : FVec Ideal S512x512 .f32) (k : Fin 512) :
    multiReduction (F := Ideal) .add [1] S512 src 0x00000000#32 reduces_S512x512_S512_2 (.inl rfl) rfl (ix1 k)
      = ∑ l : Fin 512, src (ix2 k l) := by
  refine (Ideal.multiReduction_add_single src 0x00000000#32 reduces_S512x512_S512_2 (.inl rfl) rfl (ix1 k)).trans ?_
  refine Finset.sum_congr rfl fun l _ => congrArg src ?_
  funext a
  match a with
  | ⟨0, _⟩ => exact Fin.ext rfl
  | ⟨1, _⟩ => exact Fin.ext rfl

/-- Summing a column. -/
theorem lane_sumCol (src : FVec Ideal S512x1 .f32) (u : Fin 1) :
    multiReduction (F := Ideal) .add [0] S1 src 0x00000000#32 reduces_S512x1_S1 (.inl rfl) rfl (ix1 u)
      = ∑ k : Fin 512, src (ix2 k u) := by
  refine (Ideal.multiReduction_add_single src 0x00000000#32 reduces_S512x1_S1 (.inl rfl) rfl (ix1 u)).trans ?_
  refine Finset.sum_congr rfl fun k _ => congrArg src ?_
  funext a
  match a with
  | ⟨0, _⟩ => exact Fin.ext rfl
  | ⟨1, _⟩ => exact Fin.ext rfl

/-! ### The named values at an index, against the specification's functions -/

section Apply

variable (p : Vec Ideal S1x32x512 .f32) (t1 : Vec Ideal S1x512x1 .i32) (t2 : Vec Ideal S1x1x512 .i32)

theorem embV_apply (d : Fin 32) (k : Fin 512) : embV p (ix2 d k) = p (ix3 0 d k) := by
  unfold embV
  rw [truncf_apply, shapeCast_1ab_ab_apply]

theorem gramV_apply (k l : Fin 512) : gramV p (ix2 k l) = gramOf (fun d k => p (ix3 0 d k)) k l := by
  unfold gramV
  rw [divf_apply, broadcast_apply, matmul_gram_apply]
  simp only [embV_apply]
  rfl

theorem maskV_apply (k l : Fin 512) : maskV (ix2 k l) = if k = l then (1 : EReal) else 0 := by
  unfold maskV
  rw [sitofp_apply, extui_apply, cmpi_apply, iota_single_apply, iota_single_apply, sitofp_cmp_eq]
  show (if BitVec.ofNat 32 k.val = BitVec.ofNat 32 l.val then (1 : EReal) else 0) = _
  rw [if_congr (word_eq_iff k l) rfl rfl]

theorem diagV_apply (k l : Fin 512) : diagV p (ix2 k l) = gramV p (ix2 k l) * (if k = l then (1 : EReal) else 0) := by
  unfold diagV
  rw [mulf_apply, maskV_apply]

/-- A column of the masked gram matrix sums to its diagonal entry. -/
theorem colSumV_apply (l : Fin 512) : colSumV p (ix1 l) = gramOf (fun d k => p (ix3 0 d k)) l l := by
  unfold colSumV
  rw [lane_sum0]
  simp only [diagV_apply]
  rw [sum_mul_select (fun k => gramV p (ix2 k l)) (fun k => if k = l then (1 : EReal) else 0) l (if_pos rfl) (fun j hj => if_neg hj)]
  exact gramV_apply p l l

/-- A row of the masked gram matrix sums to its diagonal entry. -/
theorem rowSumV_apply (k : Fin 512) : rowSumV p (ix1 k) = gramOf (fun d k => p (ix3 0 d k)) k k := by
  unfold rowSumV
  rw [lane_sum1]
  simp only [diagV_apply]
  rw [sum_mul_select (fun l => gramV p (ix2 k l)) (fun l => if k = l then (1 : EReal) else 0) k (if_pos rfl) (fun j hj => if_neg (Ne.symm hj))]
  exact gramV_apply p k k

theorem expoV_apply (k l : Fin 512) : expoV p (ix2 k l) = expoOf (fun d k => p (ix3 0 d k)) k l := by
  unfold expoV
  rw [subf_apply, addf_apply, mulf_apply, broadcast_apply, broadcastTo_a1_ab_apply, shapeCast_a_a1_apply,
    broadcastTo_1b_ab_apply, shapeCast_a_1a_apply, rowSumV_apply, colSumV_apply, gramV_apply]
  rfl

theorem psimV_apply (k l : Fin 512) : psimV p (ix2 k l) = psimOf (fun d k => p (ix3 0 d k)) k l := by
  unfold psimV
  rw [divf_apply, addf_apply, broadcast_apply, broadcast_apply, exp_apply, expoV_apply]
  rfl

theorem tsimV_apply (k l : Fin 512) :
    tsimV t1 t2 (ix2 k l) = tsimOf (fun k => t1 (ix3 0 k 0)) (fun l => t2 (ix3 0 0 l)) k l := by
  unfold tsimV
  rw [sitofp_apply, extui_apply, cmpi_apply, sitofp_cmp_eq, broadcastTo_a1_ab_apply, shapeCast_1ab_ab_apply,
    broadcastTo_1b_ab_apply, shapeCast_1ab_ab_apply]
  rfl

/-- The first payload at row k, column l: true similarity less predicted similarity. -/
theorem pay3_apply (k l : Fin 512) :
    k1_pay3 (F := Ideal) p t1 t2 (ix2 k l)
      = tsimOf (fun k => t1 (ix3 0 k 0)) (fun l => t2 (ix3 0 0 l)) k l - psimOf (fun d k => p (ix3 0 d k)) k l := by
  rw [pay3_eq, subf_apply, tsimV_apply, psimV_apply]

end Apply

/-! ### The stored value -/

/-- The sum of all squared entries, as the kernel takes it: along the rows, then down the column of row sums. -/
def totalV (v : FVec Ideal S512x512 .f32) : FVec Ideal S1 .f32 :=
  multiReduction (F := Ideal) .add [0] S1
    (shapeCast S512x1 (multiReduction (F := Ideal) .add [1] S512 (mulf v v) 0x00000000#32 reduces_S512x512_S512_2 (.inl rfl) rfl)
      shapeCasts_S512_S512x1 : FVec Ideal S512x1 .f32)
    0x00000000#32 reduces_S512x1_S1 (.inl rfl) rfl

theorem pay1_eq (v : FVec Ideal S512x512 .f32) (xo : Vec Ideal S1x1 .f32) :
    k1_pay1 (F := Ideal) v xo
      = addf (shapeCast S1x1 xo shapeCasts_S1x1_S1x1 : FVec Ideal S1x1 .f32)
          (divf (divf (shapeCast S1x1 (totalV v) shapeCasts_S1_S1x1 : FVec Ideal S1x1 .f32)
              (broadcast S1x1 (Scalar.ofBits .f32 0x48800000#32)))
            (broadcast S1x1 (Scalar.ofBits .f32 0x42000000#32))) := rfl

theorem totalV_apply (v : FVec Ideal S512x512 .f32) (u : Fin 1) :
    totalV v (ix1 u) = ∑ k : Fin 512, ∑ l : Fin 512, v (ix2 k l) * v (ix2 k l) := by
  unfold totalV
  rw [lane_sumCol]
  refine Finset.sum_congr rfl fun k _ => ?_
  rw [shapeCast_a_a1_apply, lane_sum1]
  refine Finset.sum_congr rfl fun l _ => ?_
  rw [mulf_apply]

/-- The value stored at a point: what the block held plus the image's share of the mean. -/
theorem pay1_apply (p : Vec Ideal S1x32x512 .f32) (t1 : Vec Ideal S1x512x1 .i32) (t2 : Vec Ideal S1x1x512 .i32)
    (xo : Vec Ideal S1x1 .f32) (y : S1x1.Idx) :
    k1_pay1 (F := Ideal) (k1_pay3 p t1 t2) xo y
      = xo y + Ideal.div (imgLossOf (fun d k => p (ix3 0 d k)) (fun k => t1 (ix3 0 k 0)) (fun l => t2 (ix3 0 0 l))) c32 := by
  obtain ⟨a, b, rfl⟩ : ∃ (a b : Fin 1), y = ix2 a b := ⟨y 0, y 1, eq_ix2 y⟩
  rw [pay1_eq, addf_apply, divf_apply, divf_apply, broadcast_apply, broadcast_apply, shapeCast_self, shapeCast_a_1a_apply,
    totalV_apply]
  have e : (∑ k : Fin 512, ∑ l : Fin 512, k1_pay3 (F := Ideal) p t1 t2 (ix2 k l) * k1_pay3 (F := Ideal) p t1 t2 (ix2 k l))
      = ∑ k : Fin 512, ∑ l : Fin 512,
          sqdiffOf (fun d k => p (ix3 0 d k)) (fun k => t1 (ix3 0 k 0)) (fun l => t2 (ix3 0 0 l)) k l :=
    Finset.sum_congr rfl fun k _ => Finset.sum_congr rfl fun l _ => by rw [pay3_apply]; rfl
  rw [e]
  rfl

/-- The cleared block holds zero. -/
theorem pay2_apply (y : S1x1.Idx) : k1_pay2 (F := Ideal) y = 0 := by
  show Ideal.ofBits .f32 0x00000000#32 = 0
  exact Ideal.ofBits_zero_f32

end Cert.TagLoss.Region1

end
-- ==== Proof.Algebra.lean ====
/-
  Two laws on the extended reals that join the two programs.
  (1) The literals of the two means denote 32 and 262144.
  (2) Dividing a sum by 32 is summing the quotients: division by the real 32 is multiplication by the non-negative real
      1/32, which distributes over a sum of extended reals. So the running sum of the shares, after the last image, is
      the mean. Beside it: each image's loss is a sum of squares times a positive real, hence non-negative.
-/
import proofs.«423133_j4836133175850_1_alg».proof.Proof.Spec
import Mathlib.Data.EReal.Operations
import Mathlib.Algebra.BigOperators.Fin

noncomputable section

open scoped BigOperators

namespace Cert.TagLoss

open Idealize.ShloMosaic Idealize.ShloMosaic.ValueIdx

theorem c32_eq : c32 = ((32 : ℝ) : EReal) := by
  simp [Ideal.ofBits, Ideal.ieee, -EReal.coe_mul]; norm_num
theorem cKK_eq : cKK = ((262144 : ℝ) : EReal) := by
  simp [Ideal.ofBits, Ideal.ieee, -EReal.coe_mul]; norm_num

/-- The square of an extended real is non-negative: a product of two factors of one sign. -/
theorem ereal_mul_self_nonneg (x : EReal) : 0 ≤ x * x := by
  rcases le_total 0 x with hx | hx
  · exact EReal.mul_nonneg hx hx
  · have hn : 0 ≤ -x := EReal.neg_nonneg.2 hx
    have := EReal.mul_nonneg hn hn
    rwa [neg_mul_neg] at this

/-- An image's loss is non-negative. -/
theorem imgLossOf_nonneg (P : Fin 32 → Fin 512 → EReal) (T1 T2 : Fin 512 → BitVec 32) : 0 ≤ imgLossOf P T1 T2 := by
  unfold imgLossOf
  rw [cKK_eq, Ideal.div_coe (by norm_num)]
  apply EReal.mul_nonneg
  · apply Finset.sum_nonneg
    intro k _
    apply Finset.sum_nonneg
    intro l _
    exact ereal_mul_self_nonneg _
  · rw [EReal.coe_nonneg]
    norm_num

/-- The running sum after image `n` is the sum of the first `n + 1` shares. -/
theorem lossAcc_eq_sum (e : SE.Idx → EReal) (kp : SK.Idx → BitVec 32) (tg : ST.Idx → BitVec 32) (n : ℕ) :
    lossAcc e kp tg n = ∑ b ∈ Finset.range (n + 1), share e kp tg b := by
  induction n with
  | zero => rw [lossAcc, Finset.sum_range_one]
  | succ n ih => rw [lossAcc, ih, Finset.sum_range_succ _ (n + 1)]

/-- Multiplication by a non-negative real on the right goes inside a finite sum of extended reals. -/
theorem sum_mul_coe {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

/-- The running sum of the 32 shares is the mean of the 32 losses. -/
theorem lossAcc_eq_loss (e : SE.Idx → EReal) (kp : SK.Idx → BitVec 32) (tg : ST.Idx → BitVec 32) :
    lossAcc e kp tg 31 = loss e kp tg := by
  rw [lossAcc_eq_sum, Finset.sum_range, loss, c32_eq, Ideal.div_coe (by norm_num),
    sum_mul_coe _ _ _ (by norm_num)]
  apply Finset.sum_congr rfl
  intro b _
  rw [share, dif_pos b.isLt, c32_eq, Ideal.div_coe (by norm_num)]

end Cert.TagLoss

end
-- ==== Proof.KernelValue.lean ====
/-
  The kernel's result as a function of the three launch arrays.

  Region 0, at grid point `t`, sees image `t` of the embedding maps and row `t` of the keypoints' rows and columns; with
  every coordinate inside the map its accumulated selection products are the gather, so block `t` of the array it leaves
  holds `emb b d k = e[t, d, row k, col k]`. Region 1, at point `t`, sees that block and row `t` of the tags in both
  layouts, and adds image `t`'s share of the mean to its one-element block — onto the cleared block at the first point,
  onto what the point before left afterwards. By induction over the points the block holds the running sum of the
  shares; after the last point it is written back, and that element, the sum of the 32 quotients, is the quotient of
  the sum: the loss.
-/
import proofs.«423133_j4836133175850_1_alg».proof.Proof.Arrays1
import proofs.«423133_j4836133175850_1_alg».proof.Proof.Region0Run
import proofs.«423133_j4836133175850_1_alg».proof.Proof.Region0Math
import proofs.«423133_j4836133175850_1_alg».proof.Proof.Region1Run
import proofs.«423133_j4836133175850_1_alg».proof.Proof.Region1Math
import proofs.«423133_j4836133175850_1_alg».proof.Proof.Algebra

noncomputable section

open scoped BigOperators

namespace Cert.TagLoss.Kernel

open Idealize.ShloMosaic Idealize.ShloMosaic.TcCoe Idealize.ShloMosaic.ValueIdx Idealize.SL.Sem Cert.KernelIdeal Cert.KernelIdeal.Gen
open Cert.TagLoss.Arrays Cert.TagLoss.Region0 Cert.TagLoss.Region1

variable (m : (ℓ : Loc nD τ sig) → Buf (Elt Ideal) ℓ) (ρ : Dev nD → PrngReg) (c : Dev nD)

/-- What region 0 writes at point `t`: channel `d` of keypoint `k` of image `t` is the embedding map at the keypoint's pixel. -/
theorem outsAt0_apply (hR : InRange (argK m c)) (t : Fin cfg0.N) (d : Fin 32) (k : Fin 512) :
    outsAt0 (V1 m ρ) c t (ix3 0 d k) = emb (argE m c) (argK m c) (img0 t) d k := by
  have h1 : InRangeBlk (rblk m ρ c t) := fun k => by rw [rblk_apply]; exact hR _
  have h2 : InRangeBlk (cblk m ρ c t) := fun k => by rw [cblk_apply]; exact hR _
  have er : rblk m ρ c t (ix3 0 0 k) = argK m c (ix3 (img0 t) k 0) := rblk_apply m ρ c t _
  have ec : cblk m ρ c t (ix3 0 0 k) = argK m c (ix3 (img0 t) k 1) := cblk_apply m ρ c t _
  refine (congrFun ((out0_eq_pay (F := Ideal) c (grid0.coords t) (ms0_0 t) (hs0_0 t) (ms0_1 t) (hs0_1 t) (ms0_2 t) (hs0_2 t) (ms0_3 t) (hs0_3 t)
    scM0_0 (Memref.isWhole_whole _) (eblk m ρ c t) (rblk m ρ c t) (cblk m ρ c t)).trans
    (pay_eq_gather (eblk m ρ c t) (rblk m ρ c t) (cblk m ρ c t) h1 h2)) (ix3 0 d k)).trans ?_
  show eblk m ρ c t (ix4 0 d ⟨min (rblk m ρ c t (ix3 0 0 k)).toInt.toNat 255, _⟩ ⟨min (cblk m ρ c t (ix3 0 0 k)).toInt.toNat 255, _⟩) = _
  rw [eblk_apply]
  unfold emb coord
  refine congrArg (argE m c) ?_
  funext a
  match a with
  | ⟨0, _⟩ => rfl
  | ⟨1, _⟩ => rfl
  | ⟨2, _⟩ => exact Fin.ext (by show min (rblk m ρ c t (ix3 0 0 k)).toInt.toNat 255 = _; rw [er])
  | ⟨3, _⟩ => exact Fin.ext (by show min (cblk m ρ c t (ix3 0 0 k)).toInt.toNat 255 = _; rw [ec])

/-- Region 1's embedding block at point `t` holds image `t`'s keypoint embeddings. -/
theorem pblk_emb (hR : InRange (argK m c)) (t : Fin cfg1.N) (d : Fin 32) (k : Fin 512) :
    pblk m ρ c t (ix3 0 d k) = emb (argE m c) (argK m c) (img1 t) d k := by
  rw [pblk_apply, parr_apply]
  exact outsAt0_apply m ρ c hR (pt0 (img1 t)) d k

/-- The share region 1 adds at point `t` is image `t`'s share of the mean. -/
theorem share_blk (hR : InRange (argK m c)) (t : Fin cfg1.N) :
    Ideal.div (imgLossOf (fun d k => pblk m ρ c t (ix3 0 d k)) (fun k => tcblk m ρ c t (ix3 0 k 0)) (fun l => trblk m ρ c t (ix3 0 0 l))) c32
      = share (argE m c) (argK m c) (argT m c) t.val := by
  have hN : t.val < 32 := lt_of_lt_of_eq t.isLt N_1
  unfold share
  rw [dif_pos hN]
  unfold imgLoss
  have e1 : (fun d k => pblk m ρ c t (ix3 0 d k)) = fun d k => emb (argE m c) (argK m c) ⟨t.val, hN⟩ d k :=
    funext fun d => funext fun k => pblk_emb m ρ c hR t d k
  have e2 : (fun k => tcblk m ρ c t (ix3 0 k 0)) = fun k => argT m c (ix2 ⟨t.val, hN⟩ k) :=
    funext fun k => tcblk_apply m ρ c t _
  have e3 : (fun l => trblk m ρ c t (ix3 0 0 l)) = fun l => argT m c (ix2 ⟨t.val, hN⟩ l) :=
    funext fun l => trblk_apply m ρ c t _
  rw [e1, e2, e3]

/-- After point `n` the output block holds the running sum of the first `n + 1` shares. -/
theorem outsAt1_eq (hR : InRange (argK m c)) : ∀ (n : ℕ) (hn : n < cfg1.N),
    outsAt1 (V3 m ρ) c n hn = fun _ => lossAcc (argE m c) (argK m c) (argT m c) n := by
  intro n
  induction n with
  | zero =>
    intro hn
    refine ((outsAt1_A (V3 m ρ) c ⟨0, hn⟩ (Nat.zero_mod _)).trans
      (out1_A_eq (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩)
        (ms1_3 ⟨0, hn⟩) (hs1_3 ⟨0, hn⟩) ((hcond1_0 ⟨0, hn⟩).mpr (Nat.zero_mod _)) (pblk m ρ c ⟨0, hn⟩) (tcblk m ρ c ⟨0, hn⟩) (trblk m ρ c ⟨0, hn⟩))).trans ?_
    funext y
    rw [Region1.pay1_apply, Region1.pay2_apply, zero_add, share_blk m ρ c hR ⟨0, hn⟩]
    rfl
  | succ n ih =>
    intro hn
    have hN : n + 1 < 32 := lt_of_lt_of_eq hn N_1
    have h0 : ¬ (n + 1) % 32 = 0 := by omega
    refine ((outsAt1_B (V3 m ρ) c ⟨n + 1, hn⟩ h0).trans
      (out1_B_eq (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
        (ms1_3 ⟨n + 1, hn⟩) (hs1_3 ⟨n + 1, hn⟩) (fun h => h0 ((hcond1_0 ⟨n + 1, hn⟩).mp h)) (pblk m ρ c ⟨n + 1, hn⟩) (tcblk m ρ c ⟨n + 1, hn⟩) (trblk m ρ c ⟨n + 1, hn⟩)
        (outsAt1 (V3 m ρ) c n (Nat.lt_of_succ_lt hn)))).trans ?_
    funext y
    rw [Region1.pay1_apply, ih (Nat.lt_of_succ_lt hn), share_blk m ρ c hR ⟨n + 1, hn⟩]
    rfl

/-- The kernel's result is the loss of the three launch arrays. -/
theorem kernel_value (hR : InRange (argK m c)) :
    resv m ρ c = fun _ => loss (argE m c) (argK m c) (argT m c) := by
  rw [resv_eq, outsAt1_eq m ρ c hR 31 (by decide)]
  funext _
  exact lossAcc_eq_loss _ _ _

end Cert.TagLoss.Kernel

end
-- ==== Proof.LibReduceTwoAxes.lean ====
/-
  A host float sum over the two trailing axes of a rank-3 array, read at the ideal instance.

  `stablehlo.reduce … add` over axes `[1, 2]` of an `[n0, n1, n2]` array into `[n0]` gives, at row `a`, the
  initial value plus the sum of every element of that row's `n1 × n2` table.  The source indices that drop to the
  result index `a` are exactly the triples `(a, p, q)`; pairing each with its two trailing coordinates turns the
  sum over that set into the double sum over `p` and `q`.  Nothing is used of the extents: the statement holds at any
  `n0`, `n1`, `n2`.
-/
import Idealize.ShloMosaic.Lib.ValueIdx
import Idealize.ShloMosaic.PureOps.Ideal.Laws

noncomputable section

open scoped BigOperators

namespace Idealize.ShloMosaic.Ideal

open Idealize.ShloMosaic Idealize.ShloMosaic.ValueIdx

/-- An index of an `[n0, n1, n2]` array drops (axes 1 and 2 removed) to `j` exactly when its leading coordinate
    is `j`'s. -/
theorem drop_trailing_two_iff {n0 n1 n2 : Nat}
    (h : (⟨3, ![n0, n1, n2]⟩ : Shape).ReducesTo [1, 2] ⟨1, ![n0]⟩)
    (i : (⟨3, ![n0, n1, n2]⟩ : Shape).Idx) (j : (⟨1, ![n0]⟩ : Shape).Idx) :
    h.drop i = j ↔ i 0 = j 0 := by
  have hv : (h.drop i 0 : Nat) = i 0 := Shape.ReducesTo.drop_apply_val h i 0
  constructor
  · intro e; rw [e] at hv; exact Fin.ext hv.symm
  · intro e; funext b; have hb : b = 0 := Subsingleton.elim _ _; subst hb; exact Fin.ext (by rw [hv, e])

/-- The host's sum over the two trailing axes of a rank-3 array, at the ideal instance: the initial value plus the
    double sum over the two trailing coordinates. -/
theorem hostReduceAdd_trailing_two {n0 n1 n2 : Nat}
    (h : (⟨3, ![n0, n1, n2]⟩ : Shape).ReducesTo [1, 2] ⟨1, ![n0]⟩)
    (x : (⟨3, ![n0, n1, n2]⟩ : Shape).Idx → EReal) (init : EReal) (j : (⟨1, ![n0]⟩ : Shape).Idx) :
    Ideal.hostReduceAdd h x init j = init + ∑ p : Fin n1, ∑ q : Fin n2, x (ix3 (j 0) p q) := by
  unfold Ideal.hostReduceAdd
  refine congrArg (init + ·) ?_
  rw [← Fintype.sum_prod_type' (f := fun (p : Fin n1) (q : Fin n2) => x (ix3 (j 0) p q))]
  refine Finset.sum_nbij' (fun i => (i 1, i 2)) (fun pq => ix3 (j 0) pq.1 pq.2) ?_ ?_ ?_ ?_ ?_
  · intro i _; exact Finset.mem_univ _
  · intro pq _; exact Finset.mem_filter.2 ⟨Finset.mem_univ _, (drop_trailing_two_iff h _ j).2 rfl⟩
  · intro i hi
    have h0 : i 0 = j 0 := (drop_trailing_two_iff h i j).1 (Finset.mem_filter.1 hi).2
    funext a
    match a with
    | ⟨0, _⟩ => exact h0.symm
    | ⟨1, _⟩ => rfl
    | ⟨2, _⟩ => rfl
  · intro pq _; rfl
  · intro i hi
    have h0 : i 0 = j 0 := (drop_trailing_two_iff h i j).1 (Finset.mem_filter.1 hi).2
    refine congrArg x ?_
    funext a
    match a with
    | ⟨0, _⟩ => exact h0
    | ⟨1, _⟩ => rfl
    | ⟨2, _⟩ => rfl

end Idealize.ShloMosaic.Ideal

end
-- ==== Proof.RefValue.lean ====
/-
  The reference computes the loss: its gather, with every keypoint coordinate inside the map, reads the embedding map at
  the keypoint's pixel (a coordinate in range is neither wrapped nor clamped); the channel mean of the squares is the
  gram matrix's diagonal; the sum over the 512 × 512 pairs is the double sum; and the last two stages are the quotient
  of the sum over the images.
-/
import proofs.«423133_j4836133175850_1_alg».proof.Proof.Gen.ReferenceIdeal.Run
import proofs.«423133_j4836133175850_1_alg».proof.Proof.Gen.ReferenceIdeal.Read
import proofs.«423133_j4836133175850_1_alg».proof.Proof.Spec
import proofs.«423133_j4836133175850_1_alg».proof.Proof.LibReduceTwoAxes
import Idealize.ShloMosaic.PureOps.Ideal.Laws
import Idealize.ShloMosaic.Lib.Pipeline.Value
import Idealize.ShloMosaic.Lib.ValueLayout

noncomputable section

open scoped BigOperators

namespace Cert.TagLoss.Ref

open Idealize.ShloMosaic Idealize.ShloMosaic.ValueIdx Cert.ReferenceIdeal Cert.ReferenceIdeal.Read

/-! ## The keypoint array the gather reads -/

/-- The row column, reshaped: entry (b, k) is the keypoint's first coordinate. -/
theorem row_at (x1 : (⟨S32x512x2, .i32⟩ : BufTy).Contents (Elt Ideal)) (b : Fin 32) (k : Fin 512) :
    val_main_v1 (F := Ideal) x1 (ix2 b k) = x1 (ix3 b k (0 : Fin 2)) := by
  rw [val_main_v1_apply, val_main_v0_apply]
  refine congrArg x1 (funext fun a => Fin.ext ?_)
  have hb := b.isLt; have hk := k.isLt
  match a with
  | ⟨0, _⟩ => show (b.val * 512 + k.val) / 512 = b.val; omega
  | ⟨1, _⟩ => show (b.val * 512 + k.val) / 1 % 512 = k.val; omega
  | ⟨2, _⟩ => rfl

/-- The column column, reshaped: entry (b, k) is the keypoint's second coordinate. -/
theorem col_at (x1 : (⟨S32x512x2, .i32⟩ : BufTy).Contents (Elt Ideal)) (b : Fin 32) (k : Fin 512) :
    val_main_v3 (F := Ideal) x1 (ix2 b k) = x1 (ix3 b k (1 : Fin 2)) := by
  rw [val_main_v3_apply, val_main_v2_apply]
  refine congrArg x1 (funext fun a => Fin.ext ?_)
  have hb := b.isLt; have hk := k.isLt
  match a with
  | ⟨0, _⟩ => show (b.val * 512 + k.val) / 512 = b.val; omega
  | ⟨1, _⟩ => show (b.val * 512 + k.val) / 1 % 512 = k.val; omega
  | ⟨2, _⟩ => rfl

/-- A word that is not negative is not wrapped: the select on "below zero" keeps it. -/
theorem wrap_keeps (v w : BitVec 32) (hv : 0 ≤ v.toInt) :
    Scalar.select (IntOp.cmpi .slt v 0#32) w v = v := by
  have hc : IntOp.cmpi .slt v 0#32 = 0#1 := by
    apply eq_zero_of_ne_one
    rw [IntOp.cmpi_slt]
    rw [show (0#32 : BitVec 32).toInt = 0 from by decide]
    omega
  rw [hc, select_zero]

/-- The wrapped row index of a keypoint in range is its row. -/
theorem wrow_at (x1 : (⟨S32x512x2, .i32⟩ : BufTy).Contents (Elt Ideal)) (h : InRange x1) (b : Fin 32) (k : Fin 512) :
    val_main_v8 (F := Ideal) x1 (ix2 b k) = x1 (ix3 b k (0 : Fin 2)) := by
  rw [val_main_v8_apply, val_main_v5_apply, val_main_v4_apply, val_main_c_apply, row_at]
  exact wrap_keeps _ _ (h _).1

/-- The wrapped column index of a keypoint in range is its column. -/
theorem wcol_at (x1 : (⟨S32x512x2, .i32⟩ : BufTy).Contents (Elt Ideal)) (h : InRange x1) (b : Fin 32) (k : Fin 512) :
    val_main_v13 (F := Ideal) x1 (ix2 b k) = x1 (ix3 b k (1 : Fin 2)) := by
  rw [val_main_v13_apply, val_main_v10_apply, val_main_v9_apply, val_main_c_1_apply, col_at]
  exact wrap_keeps _ _ (h _).1

/-- The two wrapped columns set side by side are the keypoint array itself. -/
theorem pairs_at (x1 : (⟨S32x512x2, .i32⟩ : BufTy).Contents (Elt Ideal)) (h : InRange x1) (b : Fin 32) (k : Fin 512) (a : Fin 2) :
    val_main_v16 (F := Ideal) x1 (ix3 b k a) = x1 (ix3 b k a) := by
  unfold val_main_v16
  match a with
  | ⟨0, _⟩ =>
    refine (concatenate_pair_apply_left (t := S32x512x2) (s₁ := S32x512x1) (s₂ := S32x512x1) (2 : Fin 3) _ _ _ (ix3 b k (0 : Fin 2)) rfl (ix3 b k (0 : Fin 1))
      (fun c => by match c with | ⟨0, _⟩ => rfl | ⟨1, _⟩ => rfl | ⟨2, _⟩ => rfl)).trans ?_
    rw [val_main_v14_apply]
    exact wrow_at x1 h b k
  | ⟨1, _⟩ =>
    refine (concatenate_pair_apply_right (t := S32x512x2) (s₁ := S32x512x1) (s₂ := S32x512x1) (2 : Fin 3) _ _ _ (ix3 b k (1 : Fin 2)) rfl rfl (ix3 b k (0 : Fin 1))
      (fun c hc => by match c with | ⟨0, _⟩ => rfl | ⟨1, _⟩ => rfl | ⟨2, _⟩ => exact absurd rfl hc) rfl).trans ?_
    rw [val_main_v15_apply]
    exact wcol_at x1 h b k

/-! ## The gather, axis by axis

The operand coordinate a result index (b, d, k) reads: the image on the batching axis, the channel on the one offset
axis, and on the two collapsed axes the keypoint's row and column, each read signed and kept inside the map. -/

theorem gather_axis0 (idx : S32x512x2.Idx → BitVec 32) (b d : Fin 32) (k : Fin 512) :
    (gather_S32x32x256x256_S32x512x2_S32x32x512_1_23_0_0_23_2_13211.operandIdx (ix3 b d k) idx 0).val = b.val := by
  show gather_S32x32x256x256_S32x512x2_S32x32x512_1_23_0_0_23_2_13211.start (ix3 b d k) idx 0 + gather_S32x32x256x256_S32x512x2_S32x32x512_1_23_0_0_23_2_13211.batchCoord (ix3 b d k) 0 + gather_S32x32x256x256_S32x512x2_S32x32x512_1_23_0_0_23_2_13211.offCoord (ix3 b d k) 0 = b.val
  rw [GatherDims.start_batching _ _ _ _ (show (0 : Fin S32x32x256x256.rank) ∈ gather_S32x32x256x256_S32x512x2_S32x32x512_1_23_0_0_23_2_13211.operandBatchingDims by decide),
    GatherDims.offCoord_eq_zero _ _ _ (show ¬(0 : Fin S32x32x256x256.rank) ∈ gather_S32x32x256x256_S32x512x2_S32x32x512_1_23_0_0_23_2_13211.sKept by decide)]
  unfold GatherDims.batchCoord
  rw [dif_pos (show (0 : Fin S32x32x256x256.rank) ∈ gather_S32x32x256x256_S32x512x2_S32x32x512_1_23_0_0_23_2_13211.operandBatchingDims by decide)]
  show 0 + b.val + 0 = b.val
  omega

theorem gather_axis1 (idx : S32x512x2.Idx → BitVec 32) (b d : Fin 32) (k : Fin 512) :
    (gather_S32x32x256x256_S32x512x2_S32x32x512_1_23_0_0_23_2_13211.operandIdx (ix3 b d k) idx 1).val = d.val := by
  show gather_S32x32x256x256_S32x512x2_S32x32x512_1_23_0_0_23_2_13211.start (ix3 b d k) idx 1 + gather_S32x32x256x256_S32x512x2_S32x32x512_1_23_0_0_23_2_13211.batchCoord (ix3 b d k) 1 + gather_S32x32x256x256_S32x512x2_S32x32x512_1_23_0_0_23_2_13211.offCoord (ix3 b d k) 1 = d.val
  rw [GatherDims.batchCoord_eq_zero _ _ _ (show ¬(1 : Fin S32x32x256x256.rank) ∈ gather_S32x32x256x256_S32x512x2_S32x32x512_1_23_0_0_23_2_13211.operandBatchingDims by decide)]
  unfold GatherDims.start GatherDims.offCoord
  rw [dif_neg (show ¬(1 : Fin S32x32x256x256.rank) ∈ gather_S32x32x256x256_S32x512x2_S32x32x512_1_23_0_0_23_2_13211.startIndexMap by decide),
    dif_pos (show (1 : Fin S32x32x256x256.rank) ∈ gather_S32x32x256x256_S32x512x2_S32x32x512_1_23_0_0_23_2_13211.sKept by decide)]
  show 0 + 0 + d.val = d.val
  omega

theorem gather_axis2 (idx : S32x512x2.Idx → BitVec 32) (b d : Fin 32) (k : Fin 512) :
    (gather_S32x32x256x256_S32x512x2_S32x32x512_1_23_0_0_23_2_13211.operandIdx (ix3 b d k) idx 2).val = min (idx (ix3 b k (0 : Fin 2))).toInt.toNat 255 := by
  show gather_S32x32x256x256_S32x512x2_S32x32x512_1_23_0_0_23_2_13211.start (ix3 b d k) idx 2 + gather_S32x32x256x256_S32x512x2_S32x32x512_1_23_0_0_23_2_13211.batchCoord (ix3 b d k) 2 + gather_S32x32x256x256_S32x512x2_S32x32x512_1_23_0_0_23_2_13211.offCoord (ix3 b d k) 2 = _
  rw [GatherDims.batchCoord_eq_zero _ _ _ (show ¬(2 : Fin S32x32x256x256.rank) ∈ gather_S32x32x256x256_S32x512x2_S32x32x512_1_23_0_0_23_2_13211.operandBatchingDims by decide),
    GatherDims.offCoord_eq_zero _ _ _ (show ¬(2 : Fin S32x32x256x256.rank) ∈ gather_S32x32x256x256_S32x512x2_S32x32x512_1_23_0_0_23_2_13211.sKept by decide)]
  unfold GatherDims.start
  rw [dif_pos (show (2 : Fin S32x32x256x256.rank) ∈ gather_S32x32x256x256_S32x512x2_S32x32x512_1_23_0_0_23_2_13211.startIndexMap by decide)]
  have hsi : gather_S32x32x256x256_S32x512x2_S32x32x512_1_23_0_0_23_2_13211.siIdx (ix3 b d k) ⟨List.idxOf (2 : Fin S32x32x256x256.rank) gather_S32x32x256x256_S32x512x2_S32x32x512_1_23_0_0_23_2_13211.startIndexMap,
      List.idxOf_lt_length_iff.2 (by decide)⟩ = ix3 b k (0 : Fin 2) := by
    funext c; refine Fin.ext ?_
    match c with
    | ⟨0, _⟩ => rfl
    | ⟨1, _⟩ => rfl
    | ⟨2, _⟩ => rfl
  rw [hsi]
  rfl

theorem gather_axis3 (idx : S32x512x2.Idx → BitVec 32) (b d : Fin 32) (k : Fin 512) :
    (gather_S32x32x256x256_S32x512x2_S32x32x512_1_23_0_0_23_2_13211.operandIdx (ix3 b d k) idx 3).val = min (idx (ix3 b k (1 : Fin 2))).toInt.toNat 255 := by
  show gather_S32x32x256x256_S32x512x2_S32x32x512_1_23_0_0_23_2_13211.start (ix3 b d k) idx 3 + gather_S32x32x256x256_S32x512x2_S32x32x512_1_23_0_0_23_2_13211.batchCoord (ix3 b d k) 3 + gather_S32x32x256x256_S32x512x2_S32x32x512_1_23_0_0_23_2_13211.offCoord (ix3 b d k) 3 = _
  rw [GatherDims.batchCoord_eq_zero _ _ _ (show ¬(3 : Fin S32x32x256x256.rank) ∈ gather_S32x32x256x256_S32x512x2_S32x32x512_1_23_0_0_23_2_13211.operandBatchingDims by decide),
    GatherDims.offCoord_eq_zero _ _ _ (show ¬(3 : Fin S32x32x256x256.rank) ∈ gather_S32x32x256x256_S32x512x2_S32x32x512_1_23_0_0_23_2_13211.sKept by decide)]
  unfold GatherDims.start
  rw [dif_pos (show (3 : Fin S32x32x256x256.rank) ∈ gather_S32x32x256x256_S32x512x2_S32x32x512_1_23_0_0_23_2_13211.startIndexMap by decide)]
  have hsi : gather_S32x32x256x256_S32x512x2_S32x32x512_1_23_0_0_23_2_13211.siIdx (ix3 b d k) ⟨List.idxOf (3 : Fin S32x32x256x256.rank) gather_S32x32x256x256_S32x512x2_S32x32x512_1_23_0_0_23_2_13211.startIndexMap,
      List.idxOf_lt_length_iff.2 (by decide)⟩ = ix3 b k (1 : Fin 2) := by
    funext c; refine Fin.ext ?_
    match c with
    | ⟨0, _⟩ => rfl
    | ⟨1, _⟩ => rfl
    | ⟨2, _⟩ => rfl
  rw [hsi]
  rfl

/-- The gather at (b, d, k): channel d of image b's embedding map at keypoint k's pixel. -/
theorem gathered_at (x0 : (⟨S32x32x256x256, .f32⟩ : BufTy).Contents (Elt Ideal)) (x1 : (⟨S32x512x2, .i32⟩ : BufTy).Contents (Elt Ideal))
    (h : InRange x1) (b d : Fin 32) (k : Fin 512) :
    val_main_v17 (F := Ideal) x0 x1 (ix3 b d k) = emb x0 x1 b d k := by
  unfold val_main_v17 Host.gather emb
  refine congrArg x0 (funext fun a => Fin.ext ?_)
  match a with
  | ⟨0, _⟩ => exact gather_axis0 _ b d k
  | ⟨1, _⟩ => exact gather_axis1 _ b d k
  | ⟨2, _⟩ => exact (gather_axis2 _ b d k).trans (by rw [pairs_at x1 h]; rfl)
  | ⟨3, _⟩ => exact (gather_axis3 _ b d k).trans (by rw [pairs_at x1 h]; rfl)

/-! ## One pair of keypoints of one image -/

/-- The channel mean of a keypoint's squared embedding is the gram matrix's diagonal entry. -/
theorem gram_diag_at (x0 : (⟨S32x32x256x256, .f32⟩ : BufTy).Contents (Elt Ideal)) (x1 : (⟨S32x512x2, .i32⟩ : BufTy).Contents (Elt Ideal)) (h : InRange x1) (b : Fin 32) (k : Fin 512) :
    val_main_v27 (F := Ideal) x0 x1 (ix2 b k) = gramOf (fun d k => emb x0 x1 b d k) k k := by
  rw [val_main_v27_apply, val_main_v25_apply, val_main_v26_apply, val_main_cst_3_apply, val_main_cst_apply]
  simp only [Ideal.hostDivf_def, Ideal.ofBits_def, Ideal.ofBits_zero_f32, zero_add]
  unfold gramOf
  refine congrArg (Ideal.div · c32) (Finset.sum_congr rfl fun d _ => ?_)
  rw [val_main_v24_apply, show idx_main_v25 (ix2 b k) d = ix3 b d k from funext fun a => by match a with | ⟨0, _⟩ => rfl | ⟨1, _⟩ => rfl | ⟨2, _⟩ => rfl, gathered_at x0 x1 h]
  rfl

/-- The batched product of the gathered embeddings with themselves, over 32, is the gram matrix. -/
theorem gram_at (x0 : (⟨S32x32x256x256, .f32⟩ : BufTy).Contents (Elt Ideal)) (x1 : (⟨S32x512x2, .i32⟩ : BufTy).Contents (Elt Ideal)) (h : InRange x1) (b : Fin 32) (k l : Fin 512) :
    val_main_v30 (F := Ideal) x0 x1 (ix3 b k l) = gramOf (fun d k => emb x0 x1 b d k) k l := by
  rw [val_main_v30_apply, val_main_v28_apply, val_main_v29_apply, val_main_cst_4_apply]
  simp only [Ideal.hostDivf_def, Ideal.ofBits_def]
  unfold gramOf
  refine congrArg (Ideal.div · c32) (Finset.sum_congr rfl fun d _ => ?_)
  rw [show lidx_main_v28 (ix3 b k l) d = ix3 b d k from funext fun a => by match a with | ⟨0, _⟩ => rfl | ⟨1, _⟩ => rfl | ⟨2, _⟩ => rfl,
    show ridx_main_v28 (ix3 b k l) d = ix3 b d l from funext fun a => by match a with | ⟨0, _⟩ => rfl | ⟨1, _⟩ => rfl | ⟨2, _⟩ => rfl, gathered_at x0 x1 h, gathered_at x0 x1 h]

/-- The exponent: the two diagonal entries less twice the off-diagonal one. -/
theorem expo_at (x0 : (⟨S32x32x256x256, .f32⟩ : BufTy).Contents (Elt Ideal)) (x1 : (⟨S32x512x2, .i32⟩ : BufTy).Contents (Elt Ideal)) (h : InRange x1) (b : Fin 32) (k l : Fin 512) :
    val_main_v38 (F := Ideal) x0 x1 (ix3 b k l) = expoOf (fun d k => emb x0 x1 b d k) k l := by
  rw [val_main_v38_apply, val_main_v35_apply, val_main_v37_apply, val_main_v33_apply, val_main_v31_apply,
    val_main_v34_apply, val_main_v32_apply, val_main_v36_apply, val_main_cst_5_apply, gram_at x0 x1 h,
    show idx_main_v31 (idx_main_v33 (ix3 b k l)) = ix2 b k from funext fun a => by match a with | ⟨0, _⟩ => rfl | ⟨1, _⟩ => rfl,
    show idx_main_v32 (idx_main_v34 (ix3 b k l)) = ix2 b l from funext fun a => by match a with | ⟨0, _⟩ => rfl | ⟨1, _⟩ => rfl,
    gram_diag_at x0 x1 h, gram_diag_at x0 x1 h]
  rfl

/-- The predicted similarity. -/
theorem psim_at (x0 : (⟨S32x32x256x256, .f32⟩ : BufTy).Contents (Elt Ideal)) (x1 : (⟨S32x512x2, .i32⟩ : BufTy).Contents (Elt Ideal)) (h : InRange x1) (b : Fin 32) (k l : Fin 512) :
    val_main_v43 (F := Ideal) x0 x1 (ix3 b k l) = psimOf (fun d k => emb x0 x1 b d k) k l := by
  rw [val_main_v43_apply, val_main_v42_apply, val_main_cst_7_apply, val_main_v41_apply, val_main_v40_apply,
    val_main_cst_6_apply, val_main_v39_apply, expo_at x0 x1 h]
  rfl

/-- The true similarity: the one-bit "same tag" read as a number is 1 or 0. -/
theorem tsim_at (x2 : (⟨S32x512, .i32⟩ : BufTy).Contents (Elt Ideal)) (b : Fin 32) (k l : Fin 512) :
    val_main_v23 (F := Ideal) x2 (ix3 b k l) = tsimOf (fun k => x2 (ix2 b k)) (fun k => x2 (ix2 b k)) k l := by
  rw [val_main_v23_apply, val_main_v22_apply, val_main_v20_apply, val_main_v18_apply, val_main_v21_apply,
    val_main_v19_apply,
    show idx_main_v18 (idx_main_v20 (ix3 b k l)) = ix2 b k from funext fun a => by match a with | ⟨0, _⟩ => rfl | ⟨1, _⟩ => rfl,
    show idx_main_v19 (idx_main_v21 (ix3 b k l)) = ix2 b l from funext fun a => by match a with | ⟨0, _⟩ => rfl | ⟨1, _⟩ => rfl]
  unfold tsimOf
  by_cases e : x2 (ix2 b k) = x2 (ix2 b l)
  · rw [if_pos e, IntOp.cmpi_eq.2 e]
    show (((1#1 : BitVec 1).toNat : ℝ) : EReal) = 1
    simp
  · rw [if_neg e, eq_zero_of_ne_one (fun hc => e (IntOp.cmpi_eq.1 hc))]
    show (((0#1 : BitVec 1).toNat : ℝ) : EReal) = 0
    simp

/-- One pair's squared error. -/
theorem sqdiff_at (x0 : (⟨S32x32x256x256, .f32⟩ : BufTy).Contents (Elt Ideal)) (x1 : (⟨S32x512x2, .i32⟩ : BufTy).Contents (Elt Ideal)) (x2 : (⟨S32x512, .i32⟩ : BufTy).Contents (Elt Ideal)) (h : InRange x1) (b : Fin 32) (k l : Fin 512) :
    val_main_v45 (F := Ideal) x0 x1 x2 (ix3 b k l)
      = sqdiffOf (fun d k => emb x0 x1 b d k) (fun k => x2 (ix2 b k)) (fun k => x2 (ix2 b k)) k l := by
  rw [val_main_v45_apply, val_main_v44_apply, tsim_at, psim_at x0 x1 h]
  rfl

/-! ## The two means -/

/-- A rank-1 index set is its one coordinate's range. -/
def idxEquiv1 {n : Nat} : (⟨1, ![n]⟩ : Shape).Idx ≃ Fin n where
  toFun i := i 0
  invFun p := ix1 p
  left_inv i := (eq_ix1 i).symm
  right_inv _ := rfl

/-- Image b's entry of the per-image means is its loss: the sum over the two trailing axes is the double sum over the
    pairs, started from zero. -/
theorem img_at (x0 : (⟨S32x32x256x256, .f32⟩ : BufTy).Contents (Elt Ideal)) (x1 : (⟨S32x512x2, .i32⟩ : BufTy).Contents (Elt Ideal)) (x2 : (⟨S32x512, .i32⟩ : BufTy).Contents (Elt Ideal)) (h : InRange x1) (b : Fin 32) :
    val_main_v48 (F := Ideal) x0 x1 x2 (ix1 b) = imgLoss x0 x1 x2 b := by
  rw [val_main_v48_apply, val_main_v47_apply, val_main_cst_9_apply]
  unfold val_main_v46
  simp only [Host.reduceAdd, Ideal.hostReduceAdd_def]
  rw [Ideal.hostReduceAdd_trailing_two, val_main_cst_8_apply]
  simp only [Ideal.hostDivf_def, Ideal.ofBits_def, Ideal.ofBits_zero_f32, zero_add]
  unfold imgLoss imgLossOf
  refine congrArg (Ideal.div · cKK) (Finset.sum_congr rfl fun k _ => Finset.sum_congr rfl fun l _ => ?_)
  exact sqdiff_at x0 x1 x2 h b k l

/-- The reference's result is the loss of its three arguments. -/
theorem ref_value (x0 : (⟨S32x32x256x256, .f32⟩ : BufTy).Contents (Elt Ideal)) (x1 : (⟨S32x512x2, .i32⟩ : BufTy).Contents (Elt Ideal))
    (x2 : (⟨S32x512, .i32⟩ : BufTy).Contents (Elt Ideal)) (h : InRange x1) (i : S_.Idx) :
    val_main_v50 (F := Ideal) x0 x1 x2 i = loss x0 x1 x2 := by
  rw [val_main_v50_apply, val_main_v49_apply, val_main_cst_11_apply, val_main_cst_10_apply]
  simp only [Ideal.hostDivf_def, Ideal.ofBits_def, Ideal.ofBits_zero_f32, zero_add]
  unfold loss
  refine congrArg (Ideal.div · c32) ?_
  exact (Fintype.sum_equiv (idxEquiv1 (n := 32)).symm _ _ (fun b => (img_at x0 x1 x2 h b).symm)).symm

end Cert.TagLoss.Ref

end
-- ==== Proof.PreDecode.lean ====
/-
  What the precondition says of the keypoints: its second conjunct is the conjunction over all 32 · 512 · 2 coordinates of
  `0 ≤ coordinate` and `coordinate < 256` (signed compares), so where the predicate is true every coordinate is a pixel
  index of the 256 × 256 map.
-/
import proofs.«423133_j4836133175850_1_alg».proof.Pre_finite_inputs
import proofs.«423133_j4836133175850_1_alg».proof.Proof.Spec
import Idealize.ShloMosaic.Lib.ReduceAll
import Idealize.ShloMosaic.Lib.StableHlo.Predicate

noncomputable section

open scoped BigOperators

namespace Cert.TagLoss

open Idealize.ShloMosaic

/-- A word that compares signed `≥ 0` and signed `< 256` has its signed value in `[0, 256)`. -/
theorem toInt_range_of_cmpi (w : BitVec 32) (h0 : IntOp.cmpi .sge w (0#32) = 1#1)
    (h1 : IntOp.cmpi .slt w (256#32) = 1#1) : 0 ≤ w.toInt ∧ w.toInt < 256 := by
  unfold IntOp.cmpi at h0 h1
  rw [StableHlo.Predicate.ofBool_eq_one_iff] at h0 h1
  simp only [BitVec.slt, BitVec.sle, decide_eq_true_eq] at h0 h1
  have e0 : (0#32).toInt = 0 := by decide
  have e1 : (256#32).toInt = 256 := by decide
  rw [e0] at h0
  rw [e1] at h1
  exact ⟨h0, h1⟩

/-- Under the precondition every keypoint coordinate lies in `[0, 256)`. -/
theorem inRange_of_pre [Cert.Pre_finite_inputs.Facts]
    (x0 : FVec Ideal Cert.Pre_finite_inputs.S32x32x256x256 .f32) (x1 : IVec Cert.Pre_finite_inputs.S32x512x2 32)
    (x2 : IVec Cert.Pre_finite_inputs.S32x512 32)
    (h : Cert.Pre_finite_inputs.fn (F := Ideal) x0 x1 x2 = fun _ => 1#1) : InRange x1 := by
  -- the rank-0 shape has one index
  haveI : Subsingleton Cert.Pre_finite_inputs.S_.Idx := ⟨fun a b => funext fun d => d.elim0⟩
  have e := congrFun h ValueIdx.ix0
  dsimp only [Cert.Pre_finite_inputs.fn] at e
  change IntOp.andi _ _ = 1#1 at e
  have e9 := (IntOp.andi_eq_one.1 e).2
  have hall := Host.reduce_andi_all _ _ _ _ _ e9
  intro i
  have hi := hall i
  change IntOp.andi _ _ = 1#1 at hi
  obtain ⟨h0, h1⟩ := IntOp.andi_eq_one.1 hi
  exact toInt_range_of_cmpi (x1 i) h0 h1

end Cert.TagLoss

end
-- ==== Proof.lean ====
/-
  Equivalence over the extended reals of the tag-loss kernel and its reference, under the precondition that every
  embedding is finite and every keypoint coordinate is a pixel index of the 256 × 256 map.

  The kernel is two grid programs. The first gathers, per image, the 32-channel embedding at each of 512 keypoints by
  multiplying 8-row chunks of the image with a 0/1 selection matrix built from the keypoint's row and column and adding
  the products up; a keypoint inside the map selects exactly one pixel, and `x · 0 = 0` for every extended real, so the
  sum is that pixel's embedding — what the reference's gather reads at a coordinate it neither wraps nor clamps. The
  second forms, per image, the gram matrix of the keypoint embeddings over 32, takes its diagonal through a 0/1 mask
  (again a selected sum), and from `expo k l = (g k k + g l l) − 2 g k l` the predicted similarity `2 / (1 + exp expo)`,
  its squared error against the tag-equality indicator, the mean over the 512² pairs, and adds that mean over 32 to a
  running scalar. The reference computes the same per-image means and divides their sum by 32. Each mean is a sum of
  squares over a positive constant, hence non-negative, and the positive real 1/32 distributes over sums of non-negative
  extended reals: the two results are equal, with no use of the embeddings' finiteness.

  The three frames are the generated ones (the reference's is its generated run with the result dropped); the
  idealization rewrote nothing, so `preserves` is trivial.
-/
import proofs.«423133_j4836133175850_1_alg».proof.Defs
import proofs.«423133_j4836133175850_1_alg».proof.Proof.Gen.Kernel
import proofs.«423133_j4836133175850_1_alg».proof.Proof.Gen.Kernel.Skeleton
import proofs.«423133_j4836133175850_1_alg».proof.Proof.Gen.Kernel.Loops
import proofs.«423133_j4836133175850_1_alg».proof.Proof.Gen.Kernel.Launch
import proofs.«423133_j4836133175850_1_alg».proof.Proof.Gen.Kernel.Points
import proofs.«423133_j4836133175850_1_alg».proof.Proof.Gen.Kernel.Frame
import proofs.«423133_j4836133175850_1_alg».proof.Proof.Gen.KernelIdeal
import proofs.«423133_j4836133175850_1_alg».proof.Proof.Gen.KernelIdeal.Skeleton
import proofs.«423133_j4836133175850_1_alg».proof.Proof.Gen.KernelIdeal.Loops
import proofs.«423133_j4836133175850_1_alg».proof.Proof.Gen.KernelIdeal.Launch
import proofs.«423133_j4836133175850_1_alg».proof.Proof.Gen.KernelIdeal.Points
import proofs.«423133_j4836133175850_1_alg».proof.Proof.Gen.KernelIdeal.Frame
import proofs.«423133_j4836133175850_1_alg».proof.Proof.Gen.ReferenceIdeal
import proofs.«423133_j4836133175850_1_alg».proof.Proof.Gen.ReferenceIdeal.Run
import proofs.«423133_j4836133175850_1_alg».proof.Proof.Gen.ReferenceIdeal.Read
import proofs.«423133_j4836133175850_1_alg».proof.Proof.Gen.Pre_finite_inputs
import proofs.«423133_j4836133175850_1_alg».proof.Proof.KernelValue
import proofs.«423133_j4836133175850_1_alg».proof.Proof.RefValue
import proofs.«423133_j4836133175850_1_alg».proof.Proof.PreDecode
import proofs.«423133_j4836133175850_1_alg».proof.Proof.ValueLaunch
import Idealize.ShloMosaic.Adequacy
import Idealize.ShloMosaic.Init

noncomputable section

open scoped BigOperators

namespace Cert.Proof

open Idealize.ShloMosaic Idealize.ShloMosaic.TcCoe Idealize.SL.Sem Cert.TagLoss

/-- The word-level kernel runs and keeps its arguments: the generated frame. -/
theorem frame_p : Cert.frame_Kernel := fun m ρ _ => Cert.Kernel.Gen.frame m ρ
/-- The idealized kernel runs and keeps its arguments: the generated frame. -/
theorem frame_pi : Cert.frame_KernelIdeal := fun m ρ _ => Cert.KernelIdeal.Gen.frame m ρ
/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the tag loss of the three arguments. The precondition puts every keypoint coordinate inside
    the 256 × 256 map; there the kernel's one-hot selection products and the reference's gather read the same pixel,
    and the rest of the two programs is the same arithmetic up to the order of the last sum and quotient. -/
theorem algebraic : Cert.algebraic_KernelIdeal_ReferenceIdeal := by
  intro m ρ m' ρ' hpre hagree
  have hR : ∀ c : Dev Cert.KernelIdeal.nD, InRange (m ((c.tc : Thread Cert.KernelIdeal.nD Cert.KernelIdeal.τ).loc Cert.KernelIdeal.main_arg1)) :=
    fun c => inRange_of_pre _ _ _ (hpre c)
  refine ⟨fun c => fun _ => loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.TagLoss.Kernel.kernel_value m ρ c (hR c)), (h c).2⟩)
      (Cert.KernelIdeal.Gen.run_value m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v50_eq, (hagree c).1, (hagree c).2.1, (hagree c).2.2]
    funext i
    exact Cert.TagLoss.Ref.ref_value _ _ _ (hR c) i

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
